-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S4000000x2 : S_.BroadcastsInDim S4000000x2 (![] : Fin 0 → Fin S4000000x2.rank)
  reducesTo_S4000000x2_S_d0_1 : S4000000x2.ReducesTo [0, 1] S_
  bcast_S_S2000000x1 : S_.BroadcastsInDim S2000000x1 (![] : Fin 0 → Fin S2000000x1.rank)
  reducesTo_S2000000x1_S_d0_1 : S2000000x1.ReducesTo [0, 1] S_

variable [Facts]

def fn_part1 {F : FTy → Type} [FloatOps F] (main_v13 : IVec S_ 1) (main_v16 : IVec S2000000x1 1) : IVec S_ 1 :=
  let main_c_5 : IVec S_ 1 := constantI S_ 1 1#1
  let main_v17 : IVec S_ 1 := (fun x v => Host.reduce IntOp.andi x v reducesTo_S2000000x1_S_d0_1 h_S_) main_v16 main_c_5
  let main_v18 : IVec S_ 1 := andi main_v13 main_v17
  main_v18

def fn {F : FTy → Type} [FloatOps F] (main_arg0 : FVec F S2000000x3 .f32) (main_arg1 : FVec F S2000000x3 .f32) (main_arg2 : FVec F S4000000x2 .f32) (main_arg3 : FVec F S2000000x1 .f32) (main_arg4 : IVec S2x4000000 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S4000000x2 .f32 := Host.absf main_arg2
  let main_cst_2 : FVec F S_ .f32 := constant S_ .f32 0x7F800000#32
  let main_v10 : FVec F S4000000x2 .f32 := broadcastInDim S4000000x2 ![] bcast_S_S4000000x2 main_cst_2
  let main_v11 : IVec S4000000x2 1 := cmpf .olt main_v9 main_v10
  let main_c_3 : IVec S_ 1 := constantI S_ 1 1#1
  let main_v12 : IVec S_ 1 := (fun x v => Host.reduce IntOp.andi x v reducesTo_S4000000x2_S_d0_1 h_S_) main_v11 main_c_3
  let main_v13 : IVec S_ 1 := andi main_v8 main_v12
  let main_v14 : FVec F S2000000x1 .f32 := Host.absf main_arg3
  let main_cst_4 : FVec F S_ .f32 := constant S_ .f32 0x7F800000#32
  let main_v15 : FVec F S2000000x1 .f32 := broadcastInDim S2000000x1 ![] bcast_S_S2000000x1 main_cst_4
  let main_v16 : IVec S2000000x1 1 := cmpf .olt main_v14 main_v15
  fn_part1 (F := F) main_v13 main_v16
-- ==== Kernel.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S2000000 : Shape := ⟨1, ![2000000]⟩
abbrev S4000000x1 : Shape := ⟨2, ![4000000, 1]⟩
abbrev S4000000 : Shape := ⟨1, ![4000000]⟩
abbrev S1x4000000 : Shape := ⟨2, ![1, 4000000]⟩
abbrev S_ : Shape := ⟨0, ![]⟩
abbrev S31250x128 : Shape := ⟨2, ![31250, 128]⟩
abbrev S4000x128 : Shape := ⟨2, ![4000, 128]⟩
abbrev S4000000x3 : Shape := ⟨2, ![4000000, 3]⟩
abbrev S15625x128 : Shape := ⟨2, ![15625, 128]⟩

abbrev nBuf : Space → Nat
  | .hbm => 63
  | .vmem => 22
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S4000000x2, .f32⟩
  | .hbm, ⟨3, _⟩ => ⟨S2000000x1, .f32⟩
  | .hbm, ⟨4, _⟩ => ⟨S2x4000000, .i32⟩
  | .hbm, ⟨5, _⟩ => ⟨S2000000x1, .f32⟩
  | .hbm, ⟨6, _⟩ => ⟨S2000000, .f32⟩
  | .hbm, ⟨7, _⟩ => ⟨S2000000x1, .f32⟩
  | .hbm, ⟨8, _⟩ => ⟨S2000000, .f32⟩
  | .hbm, ⟨9, _⟩ => ⟨S4000000x1, .f32⟩
  | .hbm, ⟨10, _⟩ => ⟨S4000000, .f32⟩
  | .hbm, ⟨11, _⟩ => ⟨S2000000, .f32⟩
  | .hbm, ⟨12, _⟩ => ⟨S1x4000000, .i32⟩
  | .hbm, ⟨13, _⟩ => ⟨S4000000, .i32⟩
  | .hbm, ⟨14, _⟩ => ⟨S1x4000000, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000, .f32⟩
  | .hbm, ⟨34, _⟩ => ⟨S31250x128, .f32⟩
  | .hbm, ⟨35, _⟩ => ⟨S31250x128, .f32⟩
  | .hbm, ⟨36, _⟩ => ⟨S31250x128, .f32⟩
  | .hbm, ⟨37, _⟩ => ⟨S31250x128, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000x1, .f32⟩
  | .hbm, ⟨42, _⟩ => ⟨S4000000x1, .f32⟩
  | .hbm, ⟨43, _⟩ => ⟨S4000000x1, .f32⟩
  | .hbm, ⟨44, _⟩ => ⟨S4000000x3, .f32⟩
  | .hbm, ⟨45, _⟩ => ⟨S_, .f32⟩
  | .hbm, ⟨46, _⟩ => ⟨S2000000x3, .f32⟩
  | .hbm, ⟨47, _⟩ => ⟨S4000000x1, .i32⟩
  | .hbm, ⟨48, _⟩ => ⟨S2000000x3, .f32⟩
  | .hbm, ⟨49, _⟩ => ⟨S2000000x1, .f32⟩
  | .hbm, ⟨50, _⟩ => ⟨S2000000, .f32⟩
  | .hbm, ⟨51, _⟩ => ⟨S2000000x1, .f32⟩
  | .hbm, ⟨52, _⟩ => ⟨S2000000, .f32⟩
  | .hbm, ⟨53, _⟩ => ⟨S2000000x1, .f32⟩
  | .hbm, ⟨54, _⟩ => ⟨S2000000, .f32⟩
  | .hbm, ⟨55, _⟩ => ⟨S15625x128, .f32⟩
  | .hbm, ⟨56, _⟩ => ⟨S15625x128, .f32⟩
  | .hbm, ⟨57, _⟩ => ⟨S15625x128, .f32⟩
  | .hbm, ⟨58, _⟩ => ⟨S15625x128, .f32⟩
  | .hbm, ⟨59, _⟩ => ⟨S15625x128, .f32⟩
  | .hbm, ⟨60, _⟩ => ⟨S15625x128, .f32⟩
  | .hbm, ⟨61, _⟩ => ⟨S15625x128, .f32⟩
  | .hbm, ⟨62, _⟩ => ⟨S2000000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2000000x3_S2000000x1_0_0 : S2000000x3.Slices ![0, 0] S2000000x1
  shapeCasts_S2000000x1_S2000000 : S2000000x1.ShapeCasts S2000000
  slices_S4000000x2_S4000000x1_0_0 : S4000000x2.Slices ![0, 0] S4000000x1
  shapeCasts_S4000000x1_S4000000 : S4000000x1.ShapeCasts S4000000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000_S31250x128 : S4000000.ShapeCasts S31250x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S31250x128_S4000000 : S31250x128.ShapeCasts S4000000
  concatenates_S4000000x1_S4000000x1_S4000000x1_S4000000x3_d1 : Shape.Concatenates [S4000000x1, S4000000x1, S4000000x1] S4000000x3 1
  bcast_S_S2000000x3 : S_.BroadcastsInDim S2000000x3 (![] : Fin 0 → Fin S2000000x3.rank)
  slices_S2000000x3_S2000000x1_0_1 : S2000000x3.Slices ![0, 1] S2000000x1
  slices_S2000000x3_S2000000x1_0_2 : S2000000x3.Slices ![0, 2] S2000000x1
  shapeCasts_S2000000_S15625x128 : S2000000.ShapeCasts S15625x128
  shapeCasts_S15625x128_S2000000 : S15625x128.ShapeCasts S2000000
  gather_S2000000_S4000000x1_S4000000_n_0_n_n_0_1_1_wf : GatherDims.WF S2000000 S4000000x1 S4000000 [] [0] [] [0] [] 1 ![1]
  scatter_S2000000x3_S4000000x1_S4000000x3_1_0_0_1_wf : ScatterDims.WF S2000000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4000x128.size a < S31250x128.size a
  hwx0_0 : ∀ i : grid0.Coords, EltTy.bits .f32 = 32 ∨ (Rect.unit (s := S31250x128) (fun a => cc0_transform_0 i a * S4000x128.size a) (fun a => (Pipeline.Clip.of (cc0_transform_0 i a) (S4000x128.size a) (S31250x128.size a)).extent (S4000x128.size a)) fun a => Pipeline.Clip.inb (Pipeline.Clip.ok_of (hstart0_0 i a))).WholeWords (EltTy.packing .f32)
  hwxs0_0 : ∀ i : grid0.Coords, EltTy.bits .f32 = 32 ∨ (Rect.unit (s := S4000x128) (fun _ => 0) (fun a => (Pipeline.Clip.of (cc0_transform_0 i a) (S4000x128.size a) (S31250x128.size a)).extent (S4000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4000x128.size a < S31250x128.size a
  hwx0_1 : ∀ i : grid0.Coords, EltTy.bits .f32 = 32 ∨ (Rect.unit (s := S31250x128) (fun a => cc0_transform_1 i a * S4000x128.size a) (fun a => (Pipeline.Clip.of (cc0_transform_1 i a) (S4000x128.size a) (S31250x128.size a)).extent (S4000x128.size a)) fun a => Pipeline.Clip.inb (Pipeline.Clip.ok_of (hstart0_1 i a))).WholeWords (EltTy.packing .f32)
  hwxs0_1 : ∀ i : grid0.Coords, EltTy.bits .f32 = 32 ∨ (Rect.unit (s := S4000x128) (fun _ => 0) (fun a => (Pipeline.Clip.of (cc0_transform_1 i a) (S4000x128.size a) (S31250x128.size a)).extent (S4000x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4000x128.size a < S31250x128.size a
  hwx0_2 : ∀ i : grid0.Coords, EltTy.bits .f32 = 32 ∨ (Rect.unit (s := S31250x128) (fun a => cc0_transform_2 i a * S4000x128.size a) (fun a => (Pipeline.Clip.of (cc0_transform_2 i a) (S4000x128.size a) (S31250x128.size a)).extent (S4000x128.size a)) fun a => Pipeline.Clip.inb (Pipeline.Clip.ok_of (hstart0_2 i a))).WholeWords (EltTy.packing .f32)
  hwxs0_2 : ∀ i : grid0.Coords, EltTy.bits .f32 = 32 ∨ (Rect.unit (s := S4000x128) (fun _ => 0) (fun a => (Pipeline.Clip.of (cc0_transform_2 i a) (S4000x128.size a) (S31250x128.size a)).extent (S4000x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4000x128.size a < S31250x128.size a
  hwx0_3 : ∀ i : grid0.Coords, EltTy.bits .f32 = 32 ∨ (Rect.unit (s := S31250x128) (fun a => cc0_transform_3 i a * S4000x128.size a) (fun a => (Pipeline.Clip.of (cc0_transform_3 i a) (S4000x128.size a) (S31250x128.size a)).extent (S4000x128.size a)) fun a => Pipeline.Clip.inb (Pipeline.Clip.ok_of (hstart0_3 i a))).WholeWords (EltTy.packing .f32)
  hwxs0_3 : ∀ i : grid0.Coords, EltTy.bits .f32 = 32 ∨ (Rect.unit (s := S4000x128) (fun _ => 0) (fun a => (Pipeline.Clip.of (cc0_transform_3 i a) (S4000x128.size a) (S31250x128.size a)).extent (S4000x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4000x128.size a < S15625x128.size a
  hwx1_0 : ∀ i : grid1.Coords, EltTy.bits .f32 = 32 ∨ (Rect.unit (s := S15625x128) (fun a => cc1_transform_0 i a * S4000x128.size a) (fun a => (Pipeline.Clip.of (cc1_transform_0 i a) (S4000x128.size a) (S15625x128.size a)).extent (S4000x128.size a)) fun a => Pipeline.Clip.inb (Pipeline.Clip.ok_of (hstart1_0 i a))).WholeWords (EltTy.packing .f32)
  hwxs1_0 : ∀ i : grid1.Coords, EltTy.bits .f32 = 32 ∨ (Rect.unit (s := S4000x128) (fun _ => 0) (fun a => (Pipeline.Clip.of (cc1_transform_0 i a) (S4000x128.size a) (S15625x128.size a)).extent (S4000x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4000x128.size a < S15625x128.size a
  hwx1_1 : ∀ i : grid1.Coords, EltTy.bits .f32 = 32 ∨ (Rect.unit (s := S15625x128) (fun a => cc1_transform_1 i a * S4000x128.size a) (fun a => (Pipeline.Clip.of (cc1_transform_1 i a) (S4000x128.size a) (S15625x128.size a)).extent (S4000x128.size a)) fun a => Pipeline.Clip.inb (Pipeline.Clip.ok_of (hstart1_1 i a))).WholeWords (EltTy.packing .f32)
  hwxs1_1 : ∀ i : grid1.Coords, EltTy.bits .f32 = 32 ∨ (Rect.unit (s := S4000x128) (fun _ => 0) (fun a => (Pipeline.Clip.of (cc1_transform_1 i a) (S4000x128.size a) (S15625x128.size a)).extent (S4000x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4000x128.size a < S15625x128.size a
  hwx1_2 : ∀ i : grid1.Coords, EltTy.bits .f32 = 32 ∨ (Rect.unit (s := S15625x128) (fun a => cc1_transform_2 i a * S4000x128.size a) (fun a => (Pipeline.Clip.of (cc1_transform_2 i a) (S4000x128.size a) (S15625x128.size a)).extent (S4000x128.size a)) fun a => Pipeline.Clip.inb (Pipeline.Clip.ok_of (hstart1_2 i a))).WholeWords (EltTy.packing .f32)
  hwxs1_2 : ∀ i : grid1.Coords, EltTy.bits .f32 = 32 ∨ (Rect.unit (s := S4000x128) (fun _ => 0) (fun a => (Pipeline.Clip.of (cc1_transform_2 i a) (S4000x128.size a) (S15625x128.size a)).extent (S4000x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4000x128.size a < S15625x128.size a
  hwx1_3 : ∀ i : grid1.Coords, EltTy.bits .f32 = 32 ∨ (Rect.unit (s := S15625x128) (fun a => cc1_transform_3 i a * S4000x128.size a) (fun a => (Pipeline.Clip.of (cc1_transform_3 i a) (S4000x128.size a) (S15625x128.size a)).extent (S4000x128.size a)) fun a => Pipeline.Clip.inb (Pipeline.Clip.ok_of (hstart1_3 i a))).WholeWords (EltTy.packing .f32)
  hwxs1_3 : ∀ i : grid1.Coords, EltTy.bits .f32 = 32 ∨ (Rect.unit (s := S4000x128) (fun _ => 0) (fun a => (Pipeline.Clip.of (cc1_transform_3 i a) (S4000x128.size a) (S15625x128.size a)).extent (S4000x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S4000x128.size a < S15625x128.size a
  hwx1_4 : ∀ i : grid1.Coords, EltTy.bits .f32 = 32 ∨ (Rect.unit (s := S15625x128) (fun a => cc1_transform_4 i a * S4000x128.size a) (fun a => (Pipeline.Clip.of (cc1_transform_4 i a) (S4000x128.size a) (S15625x128.size a)).extent (S4000x128.size a)) fun a => Pipeline.Clip.inb (Pipeline.Clip.ok_of (hstart1_4 i a))).WholeWords (EltTy.packing .f32)
  hwxs1_4 : ∀ i : grid1.Coords, EltTy.bits .f32 = 32 ∨ (Rect.unit (s := S4000x128) (fun _ => 0) (fun a => (Pipeline.Clip.of (cc1_transform_4 i a) (S4000x128.size a) (S15625x128.size a)).extent (S4000x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S4000x128.size a < S15625x128.size a
  hwx1_5 : ∀ i : grid1.Coords, EltTy.bits .f32 = 32 ∨ (Rect.unit (s := S15625x128) (fun a => cc1_transform_5 i a * S4000x128.size a) (fun a => (Pipeline.Clip.of (cc1_transform_5 i a) (S4000x128.size a) (S15625x128.size a)).extent (S4000x128.size a)) fun a => Pipeline.Clip.inb (Pipeline.Clip.ok_of (hstart1_5 i a))).WholeWords (EltTy.packing .f32)
  hwxs1_5 : ∀ i : grid1.Coords, EltTy.bits .f32 = 32 ∨ (Rect.unit (s := S4000x128) (fun _ => 0) (fun a => (Pipeline.Clip.of (cc1_transform_5 i a) (S4000x128.size a) (S15625x128.size a)).extent (S4000x128.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S4000x128.size a < S15625x128.size a
  hwx1_6 : ∀ i : grid1.Coords, EltTy.bits .f32 = 32 ∨ (Rect.unit (s := S15625x128) (fun a => cc1_transform_6 i a * S4000x128.size a) (fun a => (Pipeline.Clip.of (cc1_transform_6 i a) (S4000x128.size a) (S15625x128.size a)).extent (S4000x128.size a)) fun a => Pipeline.Clip.inb (Pipeline.Clip.ok_of (hstart1_6 i a))).WholeWords (EltTy.packing .f32)
  hwxs1_6 : ∀ i : grid1.Coords, EltTy.bits .f32 = 32 ∨ (Rect.unit (s := S4000x128) (fun _ => 0) (fun a => (Pipeline.Clip.of (cc1_transform_6 i a) (S4000x128.size a) (S15625x128.size a)).extent (S4000x128.size a)) fun a => (Nat.zero_add _).trans_le (Pipeline.Clip.extent_le (Pipeline.Clip.ok_of (hstart1_6 i a)))).WholeWords (EltTy.packing .f32)

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S2000000x3_S4000000x1_S4000000x3_1_0_0_1 : ScatterDims S2000000x3 S4000000x1 S4000000x3 where
  updateWindowDims := [1]
  insertedWindowDims := [0]
  scatterDimsToOperandDims := [0]
  indexVectorDim := 1
  wf := scatter_S2000000x3_S4000000x1_S4000000x3_1_0_0_1_wf

abbrev win0_0 : Pipeline.Window sig grid0 :=
  Pipeline.Window.ofSpecClip (Memref.whole main_v25) S4000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v26) S4000x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v27) S4000x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v28) S4000x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v44) S4000x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v45) S4000x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v46) S4000x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v47) S4000x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v48) S4000x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v49) S4000x128.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v50) S4000x128.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S2000000 : Shape := ⟨1, ![2000000]⟩
abbrev S4000000x1 : Shape := ⟨2, ![4000000, 1]⟩
abbrev S4000000 : Shape := ⟨1, ![4000000]⟩
abbrev S1x4000000 : Shape := ⟨2, ![1, 4000000]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S4000000x2, .f32⟩
  | .hbm, ⟨3, _⟩ => ⟨S2000000x1, .f32⟩
  | .hbm, ⟨4, _⟩ => ⟨S2x4000000, .i32⟩
  | .hbm, ⟨5, _⟩ => ⟨S2000000x1, .f32⟩
  | .hbm, ⟨6, _⟩ => ⟨S2000000, .f32⟩
  | .hbm, ⟨7, _⟩ => ⟨S2000000x1, .f32⟩
  | .hbm, ⟨8, _⟩ => ⟨S2000000, .f32⟩
  | .hbm, ⟨9, _⟩ => ⟨S4000000x1, .f32⟩
  | .hbm, ⟨10, _⟩ => ⟨S4000000, .f32⟩
  | .hbm, ⟨11, _⟩ => ⟨S1x4000000, .i32⟩
  | .hbm, ⟨12, _⟩ => ⟨S4000000, .i32⟩
  | .hbm, ⟨13, _⟩ => ⟨S1x4000000, .i32⟩
  | .hbm, ⟨14, _⟩ => ⟨S4000000, .i32⟩
  | .hbm, ⟨15, _⟩ => ⟨S2000000, .f32⟩
  | .hbm, ⟨16, _⟩ => ⟨S_, .f32⟩
  | .hbm, ⟨17, _⟩ => ⟨S2000000, .f32⟩
  | .hbm, ⟨18, _⟩ => ⟨S2000000, .f32⟩
  | .hbm, ⟨19, _⟩ => ⟨S_, .i32⟩
  | .hbm, ⟨20, _⟩ => ⟨S4000000, .i32⟩
  | .hbm, ⟨21, _⟩ => ⟨S4000000, .i1⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S4000000, .i32⟩
  | .hbm, ⟨26, _⟩ => ⟨S4000000x1, .i32⟩
  | .hbm, ⟨27, _⟩ => ⟨S4000000, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S2000000, .f32⟩
  | .hbm, ⟨41, _⟩ => ⟨S4000000x1, .i32⟩
  | .hbm, ⟨42, _⟩ => ⟨S2000000, .f32⟩
  | .hbm, ⟨43, _⟩ => ⟨S_, .f32⟩
  | .hbm, ⟨44, _⟩ => ⟨S4000000, .f32⟩
  | .hbm, ⟨45, _⟩ => ⟨S_, .f32⟩
  | .hbm, ⟨46, _⟩ => ⟨S2000000, .f32⟩
  | .hbm, ⟨47, _⟩ => ⟨S4000000x1, .i32⟩
  | .hbm, ⟨48, _⟩ => ⟨S2000000, .f32⟩
  | .hbm, ⟨49, _⟩ => ⟨S_, .f32⟩
  | .hbm, ⟨50, _⟩ => ⟨S2000000, .f32⟩
  | .hbm, ⟨51, _⟩ => ⟨S2000000, .i1⟩
  | .hbm, ⟨52, _⟩ => ⟨S_, .f32⟩
  | .hbm, ⟨53, _⟩ => ⟨S2000000, .f32⟩
  | .hbm, ⟨54, _⟩ => ⟨S2000000, .f32⟩
  | .hbm, ⟨55, _⟩ => ⟨S2000000, .f32⟩
  | .hbm, ⟨56, _⟩ => ⟨S_, .f32⟩
  | .hbm, ⟨57, _⟩ => ⟨S_, .f32⟩
  | .hbm, ⟨58, _⟩ => ⟨S2000000, .f32⟩
  | .hbm, ⟨59, _⟩ => ⟨S2000000, .f32⟩
  | .hbm, ⟨60, _⟩ => ⟨S_, .i32⟩
  | .hbm, ⟨61, _⟩ => ⟨S4000000, .i32⟩
  | .hbm, ⟨62, _⟩ => ⟨S4000000, .i1⟩
  | .hbm, ⟨63, _⟩ => ⟨S_, .i32⟩
  | .hbm, ⟨64, _⟩ => ⟨S4000000, .i32⟩
  | .hbm, ⟨65, _⟩ => ⟨S4000000, .i32⟩
  | .hbm, ⟨66, _⟩ => ⟨S4000000, .i32⟩
  | .hbm, ⟨67, _⟩ => ⟨S4000000x1, .i32⟩
  | .hbm, ⟨68, _⟩ => ⟨S4000000, .f32⟩
  | .hbm, ⟨69, _⟩ => ⟨S_, .f32⟩
  | .hbm, ⟨70, _⟩ => ⟨S2000000, .f32⟩
  | .hbm, ⟨71, _⟩ => ⟨S4000000x1, .i32⟩
  | .hbm, ⟨72, _⟩ => ⟨S2000000, .f32⟩
  | .hbm, ⟨73, _⟩ => ⟨S_, .f32⟩
  | .hbm, ⟨74, _⟩ => ⟨S2000000, .f32⟩
  | .hbm, ⟨75, _⟩ => ⟨S2000000, .f32⟩
  | .hbm, ⟨76, _⟩ => ⟨S2000000, .f32⟩
  | .hbm, ⟨77, _⟩ => ⟨S_, .f32⟩
  | .hbm, ⟨78, _⟩ => ⟨S2000000, .f32⟩
  | .hbm, ⟨79, _⟩ => ⟨S2000000, .f32⟩
  | .hbm, ⟨80, _⟩ => ⟨S2000000, .f32⟩
  | .hbm, ⟨81, _⟩ => ⟨S2000000, .f32⟩
  | .hbm, ⟨82, _⟩ => ⟨S_, .f32⟩
  | .hbm, ⟨83, _⟩ => ⟨S2000000, .f32⟩
  | .hbm, ⟨84, _⟩ => ⟨S2000000, .f32⟩
  | .hbm, ⟨85, _⟩ => ⟨S2000000, .f32⟩
  | .hbm, ⟨86, _⟩ => ⟨S2000000, .f32⟩
  | .hbm, ⟨87, _⟩ => ⟨S2000000, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S4000000x2_S4000000x1_0_0 : S4000000x2.Slices ![0, 0] S4000000x1
  shapeCasts_S4000000x1_S4000000 : S4000000x1.ShapeCasts S4000000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S2000000 : S_.BroadcastsInDim S2000000 (![] : Fin 0 → Fin S2000000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  gather_S2000000_S4000000x1_S4000000_n_0_n_n_0_1_1_wf : GatherDims.WF S2000000 S4000000x1 S4000000 [] [0] [] [0] [] 1 ![1]
  scatter_S2000000_S4000000x1_S4000000_n_0_0_1_wf : ScatterDims.WF S2000000 S4000000x1 S4000000 [] [0] [0] 1

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf

class Facts : Prop extends Facts₀ where

variable [Facts]
-- ==== Proof.Kernel.Edge.lean ====
import proofs.«113954_j16939351015518_1_alg».proof.Proof.Gen.Kernel.Launch
import proofs.«113954_j16939351015518_1_alg».proof.Proof.Gen.Kernel.Skeleton
import proofs.«113954_j16939351015518_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The edge difference over whole arrays. -/
def edgeOut (usrc udst ea : FVec F S31250x128 .f32) : FVec F S31250x128 .f32 :=
  divf (subf udst usrc) ea

/-- Window w's block at point t, the part inside the array, read off the entry contents. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staging buffer holding the block, zero past the array's end. -/
def stgAt (c : Dev nD) (w : Fin cfg0.W) (t : Fin cfg0.N) (z : (cfg0.win w).block.Idx → Elt F (cfg0.win w).elt) :
    (cfg0.win w).block.Idx → Elt F (cfg0.win w).elt :=
  (cfg0.win w).fill (cfg0.grid.coords t) z (blkAt V c w t)

def zblk : S4000x128.Idx → Elt F .f32 := fun _ => Scalar.ofBits .f32 0#32

def dat0 (c : Dev nD) : Dat τ (Elt F) Unit ℕ (UR sig nD τ) ℕ cfg0 c where
  A w := V c (Pipeline.arrRef spec0 w)
  after w t := match w with
    | ⟨0, _⟩ => stgAt V c 0 t zblk
    | ⟨1, _⟩ => stgAt V c 1 t zblk
    | ⟨2, _⟩ => stgAt V c 2 t zblk
    | ⟨3, _⟩ => k0_pay1 (stgAt V c 1 t zblk) (stgAt V c 0 t zblk) (stgAt V c 2 t zblk)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## The payload, element by element

Every operation of the payload is a pointwise vector operation or a cast between equal shapes (the identity), so
element j of the result is a scalar expression of element j of each operand, and of nothing else. -/

/-- Element j of the payload: (a j − b j) / e j. -/
theorem k0_pay1_apply (a b e : Vec F S4000x128 .f32) (j : S4000x128.Idx) :
    k0_pay1 a b e j = FloatOps.divf (FloatOps.subf (a j) (b j)) (e j) := by
  unfold k0_pay1
  simp only [shapeCast_self]
  rfl

/-- Element i of the edge difference over whole arrays: (udst i − usrc i) / ea i. -/
theorem edgeOut_apply (usrc udst ea : FVec F S31250x128 .f32) (i : S31250x128.Idx) :
    edgeOut usrc udst ea i = FloatOps.divf (FloatOps.subf (udst i) (usrc i)) (ea i) := rfl

/-! ## What the proof data states, window by window -/

theorem after0_0 (c : Dev nD) (t : Fin cfg0.N) : (dat0 V c).after 0 t = stgAt V c 0 t zblk := by dsimp only [dat0]
theorem after0_1 (c : Dev nD) (t : Fin cfg0.N) : (dat0 V c).after 1 t = stgAt V c 1 t zblk := by dsimp only [dat0]
theorem after0_2 (c : Dev nD) (t : Fin cfg0.N) : (dat0 V c).after 2 t = stgAt V c 2 t zblk := by dsimp only [dat0]
theorem after0_3 (c : Dev nD) (t : Fin cfg0.N) : (dat0 V c).after 3 t
    = k0_pay1 (stgAt V c 1 t zblk) (stgAt V c 0 t zblk) (stgAt V c 2 t zblk) := by dsimp only [dat0]

/-- A block filled out past the array's end, cut back to the rows inside the array, is the block. -/
theorem cut_stgAt (c : Dev nD) (w : Fin cfg0.W) (t : Fin cfg0.N) (z) :
    (cfg0.win w).cut (cfg0.grid.coords t) (stgAt V c w t z) = blkAt V c w t :=
  (cfg0.win w).cut_fill _ _ _

/-! ## What each staging buffer holds when the body runs -/

/-- The output window is never fetched. -/
theorem fetch0_3 : ∀ t : Fin cfg0.N, (cfg0.win 3).fetch t = false :=
  (by decide +kernel : ∀ t : Fin grid0.N, win0_3.fetch t = false)

/-- An input's buffer, fetched at every point, holds its block on the rows inside the array and, past the
    array's end, whatever it held (d). -/
theorem before0_0 (c : Dev nD) (t : Fin cfg0.N) (d) :
    (dat0 V c).before 0 t d = (cfg0.win 0).fill (cfg0.grid.coords t) d (blkAt V c 0 t) := by
  unfold Dat.before; rw [if_pos (fetch0_0 t)]; rfl
theorem before0_1 (c : Dev nD) (t : Fin cfg0.N) (d) :
    (dat0 V c).before 1 t d = (cfg0.win 1).fill (cfg0.grid.coords t) d (blkAt V c 1 t) := by
  unfold Dat.before; rw [if_pos (fetch0_1 t)]; rfl
theorem before0_2 (c : Dev nD) (t : Fin cfg0.N) (d) :
    (dat0 V c).before 2 t d = (cfg0.win 2).fill (cfg0.grid.coords t) d (blkAt V c 2 t) := by
  unfold Dat.before; rw [if_pos (fetch0_2 t)]; rfl
/-- The output's buffer holds contents nothing names: at the first point what it held, later what the
    previous point's write-back left, which is stated of no row. -/
theorem before0_3 (c : Dev nD) (t : Fin cfg0.N) (d) : (dat0 V c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body's triple, on arbitrary whole staging contents -/

/-- The whole staging block as a rectangle of itself: every load and the store of the body go through it. -/
abbrev rAll : Rect S4000x128 := Rect.unit (s := S4000x128) ![0, 0] S4000x128.size inb_S4000x128_S4000x128_0_0

/-- What the body's one store leaves in the output's staging buffer, from the contents x0, x1, x2 of the three
    inputs' buffers: the payload of the three whole loads, laid over the whole block. -/
def outStore (x0 x1 x2 : Vec F S4000x128 .f32) : Vec F S4000x128 .f32 :=
  View.canon [⟨rAll, k0_pay1 (View.ld x1 rAll) (View.ld x0 rAll) (View.ld x2 rAll)⟩]

/-- The one store covers the block. -/
theorem cover_rAll (p0 : Vec F S4000x128 .f32) (y : S4000x128.Idx) :
    ∃ pc ∈ ([⟨rAll, p0⟩] : List (View.Piece (Elt F) S4000x128 .f32)), y ∈ pc.1.set :=
  View.cover_of_tiled [⟨rAll, p0⟩] S4000x128.size (by rfl) y

set_option maxHeartbeats 1000000 in
/-- The kernel function on whole staging memrefs, the inputs' at contents x0, x1, x2 and the output's at
    anything: four whole loads (the output's read by nothing) and one whole store; the inputs keep their
    contents and the output's buffer ends at `outStore x0 x1 x2`. -/
theorem sound_kernel0 (c : Dev nD) (E : Set ℕ) (i : grid0.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (x0 x1 x2 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outStore x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_rAll _)

/-! ## The store's contents are the payload of the whole buffers -/

/-- The whole block's rectangle places an index at itself. -/
theorem rAll_idx (j : S4000x128.Idx) : rAll.idx j = j := by
  funext a; apply Fin.ext
  show (![0, 0] : Fin 2 → Nat) a + 1 * (j a).val = (j a).val
  have h : (![0, 0] : Fin 2 → Nat) a = 0 := by fin_cases a <;> rfl
  omega

/-- So a whole load reads the contents, a whole store leaves its payload: the output's buffer ends at the
    payload of the three inputs' buffers. -/
theorem outStore_eq (x0 x1 x2 : Vec F S4000x128 .f32) : outStore x0 x1 x2 = k0_pay1 x1 x0 x2 := by
  have hld : ∀ x : Vec F S4000x128 .f32, View.ld x rAll = x := fun x => funext fun j => congrArg x (rAll_idx j)
  unfold outStore
  rw [hld, hld, hld]
  funext j
  have h := View.canon_cons_emb (Val := Elt F) (e := .f32) rAll (k0_pay1 x1 x0 x2 : rAll.shape.Idx → Elt F .f32) [] j
  rw [show rAll.emb j = j from rAll_idx j] at h
  exact h

/-! ## The payload of buffers that agree on the rows inside the array -/

/-- The four windows cut a staging block alike (one index map, one block shape), and the payload is
    pointwise: operands that agree on the rows a point moves give payloads that agree there. The rows of a
    staging block past the array's end never reach a row inside it. -/
theorem cut_pay (i : grid0.Coords) (a b e a' b' e' : Vec F S4000x128 .f32)
    (ha : win0_1.cut i a = win0_1.cut i a') (hb : win0_0.cut i b = win0_0.cut i b')
    (he : win0_2.cut i e = win0_2.cut i e') :
    win0_3.cut i (k0_pay1 a b e) = win0_3.cut i (k0_pay1 a' b' e') := by
  funext j
  show k0_pay1 a b e (win0_3.xinj i j) = k0_pay1 a' b' e' (win0_3.xinj i j)
  rw [k0_pay1_apply, k0_pay1_apply]
  have h1 : a (win0_3.xinj i j) = a' (win0_3.xinj i j) := congrFun ha j
  have h2 : b (win0_3.xinj i j) = b' (win0_3.xinj i j) := congrFun hb j
  have h3 : e (win0_3.xinj i j) = e' (win0_3.xinj i j) := congrFun he j
  rw [h1, h2, h3]

/-! ## The body obligation -/

set_option maxHeartbeats 1000000 in
/-- At every point: the inputs' buffers arrive holding their blocks filled out with anything past the array's
    end, the output's holding anything; the inputs leave as they came, which on the rows inside the array is
    their block; the output leaves at the payload of the three buffers, which on the rows inside the array is
    the payload of the three blocks, whatever lay past the array's end. Every window is loose: nothing more
    is asked. The invariant and what the core owes pass through unread. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  -- on the rows inside the array, the payload of the three buffers is the payload of the three blocks
  have hpay : (cfg0.win 3).cut (cfg0.grid.coords t)
        (k0_pay1 ((cfg0.win 1).fill (cfg0.grid.coords t) d1 (blkAt V c 1 t))
          ((cfg0.win 0).fill (cfg0.grid.coords t) d0 (blkAt V c 0 t))
          ((cfg0.win 2).fill (cfg0.grid.coords t) d2 (blkAt V c 2 t)))
      = (cfg0.win 3).cut (cfg0.grid.coords t)
        (k0_pay1 (stgAt V c 1 t zblk) (stgAt V c 0 t zblk) (stgAt V c 2 t zblk)) :=
    cut_pay (grid0.coords t) _ _ _ _ _ _
      (((cfg0.win 1).cut_fill _ _ _).trans (cut_stgAt V c 1 t zblk).symm)
      (((cfg0.win 0).cut_fill _ _ _).trans (cut_stgAt V c 0 t zblk).symm)
      (((cfg0.win 2).cut_fill _ _ _).trans (cut_stgAt V c 2 t zblk).symm)
  iapply (sound_kernel0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win 0).fill (cfg0.grid.coords t) d0 (blkAt V c 0 t))
    ((cfg0.win 1).fill (cfg0.grid.coords t) d1 (blkAt V c 1 t))
    ((cfg0.win 2).fill (cfg0.grid.coords t) d2 (blkAt V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  rw [outStore_eq]
  isplitl [H0]
  · iexists d0; rw [cut_stgAt V c 0 t zblk]; iexact H0
  isplitl [H1]
  · iexists d1; rw [cut_stgAt V c 1 t zblk]; iexact H1
  isplitl [H2]
  · iexists d2; rw [cut_stgAt V c 2 t zblk]; iexact H2
  · iexists _; rw [(cfg0.win 3).fill_congr_cut (cfg0.grid.coords t) hpay]; iexact H3

/-! ## The output array after the run -/

/-- The per-point facts of the output window, decided over the eight points: point t's block index is (t, 0); it
    moves 4000 rows, but the last point, whose block overhangs the array, 3250; and every lane. -/
theorem blk_facts0_3 : ∀ t : Fin grid0.N, win0_3.index t 0 = t.val ∧ win0_3.index t 1 = 0
    ∧ win0_3.xsize (grid0.coords t) 0 = (if t.val = 7 then 3250 else 4000) ∧ win0_3.xsize (grid0.coords t) 1 = 128 := by
  decide +kernel

/-- An index of the array whose row is among the rows point t's block holds inside the array is in that block
    (every lane is: the blocks span the lanes). -/
theorem mem_blk0_3 (t : Fin cfg0.N) (i : S31250x128.Idx)
    (h : t.val * 4000 ≤ (i 0 : Nat) ∧ (i 0 : Nat) < t.val * 4000 + (if t.val = 7 then 3250 else 4000)) :
    i ∈ ((cfg0.win 3).blk t).view.set := by
  show i ∈ ((View.whole main_v28).slice (win0_3.rect t)).set
  rw [View.set_slice_whole, Rect.mem_set_unit]
  have h1 : (i 1 : Nat) < 128 := (i 1).isLt
  obtain ⟨e0, e1, e2, e3⟩ := blk_facts0_3 t
  intro a
  match a with
  | ⟨0, _⟩ =>
    change win0_3.index t 0 * 4000 ≤ (i 0 : Nat) ∧ (i 0 : Nat) < win0_3.index t 0 * 4000 + win0_3.xsize (grid0.coords t) 0
    rw [e0, e2]; exact h
  | ⟨1, _⟩ =>
    change win0_3.index t 1 * 128 ≤ (i 1 : Nat) ∧ (i 1 : Nat) < win0_3.index t 1 * 128 + win0_3.xsize (grid0.coords t) 1
    rw [e1, e3]; omega

/-- Every index of the array lies in the block of the point its row falls to: rows 4000 t ‥ 4000 t + 3999 at
    points 0 ‥ 6, rows 28000 ‥ 31249 at point 7. -/
theorem cover0_3 (i : S31250x128.Idx) :
    ∃ t : Fin cfg0.N, (cfg0.win 3).flush t = true ∧ i ∈ ((cfg0.win 3).blk t).view.set := by
  have hi0 : (i 0 : Nat) < 31250 := (i 0).isLt
  have hN : cfg0.N = 8 := N_0
  refine ⟨⟨(i 0 : Nat) / 4000, by rw [hN]; omega⟩, flush0_3 _, mem_blk0_3 _ i ?_⟩
  show (i 0 : Nat) / 4000 * 4000 ≤ (i 0 : Nat) ∧ (i 0 : Nat) < (i 0 : Nat) / 4000 * 4000 + (if (i 0 : Nat) / 4000 = 7 then 3250 else 4000)
  split <;> omega

/-- What point t writes back — the rows inside the array of what the body left in the output's buffer — is point
    t's block of the edge difference over whole arrays: the payload is pointwise, a filled block read on a row
    inside the array is the block there, a block read is the array read at the block's place in it, and the four
    windows' blocks sit at one place (one index map, one block shape). -/
theorem flushed0_3 (c : Dev nD) (t : Fin cfg0.N) :
    (dat0 V c).flushed 3 t = ((cfg0.win 3).blk t).view.read (Elt F)
      (edgeOut (V c main_v25) (V c main_v26) (V c main_v27) : Buf (Elt F) ((c : Thread nD τ).loc main_v28)) := by
  show (cfg0.win 3).cut (cfg0.grid.coords t) ((dat0 V c).after 3 t) = _
  rw [after0_3]
  funext j
  show k0_pay1 (stgAt V c 1 t zblk) (stgAt V c 0 t zblk) (stgAt V c 2 t zblk) (win0_3.xinj (grid0.coords t) j) = _
  rw [k0_pay1_apply]
  have h0 : stgAt V c 0 t zblk (win0_3.xinj (grid0.coords t) j) = blkAt V c 0 t j := (cfg0.win 0).fill_xinj _ _ _ j
  have h1 : stgAt V c 1 t zblk (win0_3.xinj (grid0.coords t) j) = blkAt V c 1 t j := (cfg0.win 1).fill_xinj _ _ _ j
  have h2 : stgAt V c 2 t zblk (win0_3.xinj (grid0.coords t) j) = blkAt V c 2 t j := (cfg0.win 2).fill_xinj _ _ _ j
  rw [h0, h1, h2]
  rfl

theorem arrAt_out0 (c : Dev nD) :
    (dat0 V c).arrAt 3 cfg0.N = (edgeOut (V c main_v25) (V c main_v26) (V c main_v27) : Buf (Elt F) ((c : Thread nD τ).loc main_v28)) :=
  (dat0 V c).arrAt_eq_of_cover 3 _ (fun t _ => flushed0_3 V c t) cover0_3

end Cert.Kernel.Edge

end
-- ==== Proof.Kernel.Node.lean ====
import proofs.«113954_j16939351015518_1_alg».proof.Proof.Gen.Kernel.Launch
import proofs.«113954_j16939351015518_1_alg».proof.Proof.Gen.Kernel.Skeleton
import proofs.«113954_j16939351015518_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The node combination over whole arrays: temporal difference over the step, plus the mean edge difference (zero where no edge arrives) times the node value, minus the viscosity times the second difference, all times the mask. -/
def nodeOut (ut ut1 sums cnt se mask : FVec F S15625x128 .f32) : FVec F S15625x128 .f32 :=
  mulf (subf (addf (divf (subf ut ut1) (broadcast S15625x128 (Scalar.ofBits .f32 0x3C23D70A#32)))
                   (mulf (select (cmpf .ogt cnt (broadcast S15625x128 (Scalar.ofBits .f32 0x00000000#32)))
                                 (divf sums (maximumf cnt (broadcast S15625x128 (Scalar.ofBits .f32 0x3F800000#32))))
                                 (broadcast S15625x128 (Scalar.ofBits .f32 0x00000000#32))) ut))
             (mulf (broadcast S15625x128 (Scalar.ofBits .f32 0x3C23D70A#32))
                   (divf (subf se (mulf (broadcast S15625x128 (Scalar.ofBits .f32 0x40000000#32)) ut))
                         (broadcast S15625x128 (Scalar.ofBits .f32 0x358637BD#32)))))
       mask

/-- Window w's block at point t, the part inside the array, read off the entry contents. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A staging buffer holding the block, zero past the array's end. -/
def stgAt (c : Dev nD) (w : Fin cfg1.W) (t : Fin cfg1.N) (z : (cfg1.win w).block.Idx → Elt F (cfg1.win w).elt) :
    (cfg1.win w).block.Idx → Elt F (cfg1.win w).elt :=
  (cfg1.win w).fill (cfg1.grid.coords t) z (blkAt V c w t)

def zblk : S4000x128.Idx → Elt F .f32 := fun _ => Scalar.ofBits .f32 0#32

def dat1 (c : Dev nD) : Dat τ (Elt F) Unit ℕ (UR sig nD τ) ℕ cfg1 c where
  A w := V c (Pipeline.arrRef spec1 w)
  after w t := match w with
    | ⟨0, _⟩ => stgAt V c 0 t zblk
    | ⟨1, _⟩ => stgAt V c 1 t zblk
    | ⟨2, _⟩ => stgAt V c 2 t zblk
    | ⟨3, _⟩ => stgAt V c 3 t zblk
    | ⟨4, _⟩ => stgAt V c 4 t zblk
    | ⟨5, _⟩ => stgAt V c 5 t zblk
    | ⟨6, _⟩ => k1_pay1 (stgAt V c 0 t zblk) (stgAt V c 1 t zblk) (stgAt V c 2 t zblk) (stgAt V c 3 t zblk) (stgAt V c 4 t zblk) (stgAt V c 5 t zblk)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The combination at one element. -/
def nodeS (a0 a1 a2 a3 a4 a5 : F .f32) : F .f32 :=
  FloatOps.mulf (FloatOps.subf (FloatOps.addf (FloatOps.divf (FloatOps.subf a0 a1) (Scalar.ofBits .f32 0x3C23D70A#32))
      (FloatOps.mulf (Scalar.select (FloatOps.cmpf .ogt a3 (Scalar.ofBits .f32 0x00000000#32))
          (FloatOps.divf a2 (FloatOps.maximumf a3 (Scalar.ofBits .f32 0x3F800000#32))) (Scalar.ofBits .f32 0x00000000#32)) a0))
    (FloatOps.mulf (Scalar.ofBits .f32 0x3C23D70A#32)
      (FloatOps.divf (FloatOps.subf a4 (FloatOps.mulf (Scalar.ofBits .f32 0x40000000#32) a0)) (Scalar.ofBits .f32 0x358637BD#32)))) a5

/-- The whole-array combination at an index is the one-element combination of the arrays' elements there. -/
theorem nodeOut_apply (ut ut1 sums cnt se mask : FVec F S15625x128 .f32) (i : S15625x128.Idx) :
    nodeOut ut ut1 sums cnt se mask i = nodeS (ut i) (ut1 i) (sums i) (cnt i) (se i) (mask i) := rfl

/-- The body's payload is pointwise: element j of the result is the one-element combination of element j of each
    operand (every operation in it is a pointwise vector operation, a broadcast constant, or a cast between equal shapes). -/
theorem pay_apply (v0 v2 v4 v6 v8 v10 : Vec F S4000x128 .f32) (j : S4000x128.Idx) :
    k1_pay1 v0 v2 v4 v6 v8 v10 j = nodeS (v0 j) (v2 j) (v4 j) (v6 j) (v8 j) (v10 j) := by
  unfold k1_pay1
  simp only [shapeCast_self]
  rfl

/-- The zero offsets of a whole-buffer access, as a constant function. -/
theorem hz : (![0, 0] : Fin 2 → Nat) = fun _ => 0 := funext fun a => by fin_cases a <;> rfl

set_option maxHeartbeats 1000000 in
/-- The kernel body on whole staging memrefs, the six inputs' at read contents x0 … x5 and the output's at anything:
    it runs to the continuation holding the inputs' as they were and the output's at the payload of the six. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (arg7 : Memref sig .tc .vmem S4000x128 .f32) (harg7 : arg7.IsWhole)
    (x0 x1 x2 x3 x4 x5 : Vec F S4000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x1 x2 x3 x4 x5)) -∗ K ⟨⟩))
      ⊢ wp frame (wpE (defs₀ (F := F)) Variants.none c none) E
          (cc1__node_combine_kernel i arg1 harg1 arg2 harg2 arg3 harg3 arg4 harg4 arg5 harg5 arg6 harg6 arg7 harg7) K := by
  simp only [cc1__node_combine_kernel_eq_skeleton]; unfold cc1__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz inb_S4000x128_S4000x128_0_0 y⟩),
    View.canon_unit_zero hz]
  simp only [View.readAt_eq_ld, View.ld_unit_zero (S := S4000x128) hz]

/-! ## What the body finds in each window's buffer -/

/-- An input window is fetched at every point: its buffer holds the block on the rows inside the array and
    whatever it held (d) past the array's end. -/
theorem before_in (c : Dev nD) (w : Fin cfg1.W) (t : Fin cfg1.N) (hf : (cfg1.win w).fetch t = true)
    (d : (cfg1.win w).block.Idx → Elt F (cfg1.win w).elt) : (dat1 V c).before w t d = stgAt V c w t d := by
  rw [(dat1 V c).before_fetched w t hf d]
  unfold Dat.fetched Dat.blockOf stgAt blkAt
  rw [A_eq1]

theorem before1_0 (c : Dev nD) (t : Fin cfg1.N) (d) : (dat1 V c).before 0 t d = stgAt V c 0 t d := before_in V c 0 t (fetch1_0 t) d
theorem before1_1 (c : Dev nD) (t : Fin cfg1.N) (d) : (dat1 V c).before 1 t d = stgAt V c 1 t d := before_in V c 1 t (fetch1_1 t) d
theorem before1_2 (c : Dev nD) (t : Fin cfg1.N) (d) : (dat1 V c).before 2 t d = stgAt V c 2 t d := before_in V c 2 t (fetch1_2 t) d
theorem before1_3 (c : Dev nD) (t : Fin cfg1.N) (d) : (dat1 V c).before 3 t d = stgAt V c 3 t d := before_in V c 3 t (fetch1_3 t) d
theorem before1_4 (c : Dev nD) (t : Fin cfg1.N) (d) : (dat1 V c).before 4 t d = stgAt V c 4 t d := before_in V c 4 t (fetch1_4 t) d
theorem before1_5 (c : Dev nD) (t : Fin cfg1.N) (d) : (dat1 V c).before 5 t d = stgAt V c 5 t d := before_in V c 5 t (fetch1_5 t) d

/-- The output window is never fetched, and the point before wrote it back: its buffer holds contents nothing names. -/
theorem before1_6 (c : Dev nD) (t : Fin cfg1.N) (d) : (dat1 V c).before 6 t d = d := by
  refine (dat1 V c).before_out_reset 6 rfl t ?_ d
  by_cases h0 : t.val = 0
  · exact .inl h0
  · exact .inr ⟨h0, flush1_6 _⟩

/-! ## What the body leaves, window by window -/

theorem after1_0 (c : Dev nD) (t : Fin cfg1.N) : (dat1 V c).after 0 t = stgAt V c 0 t zblk := by dsimp only [dat1]
theorem after1_1 (c : Dev nD) (t : Fin cfg1.N) : (dat1 V c).after 1 t = stgAt V c 1 t zblk := by dsimp only [dat1]
theorem after1_2 (c : Dev nD) (t : Fin cfg1.N) : (dat1 V c).after 2 t = stgAt V c 2 t zblk := by dsimp only [dat1]
theorem after1_3 (c : Dev nD) (t : Fin cfg1.N) : (dat1 V c).after 3 t = stgAt V c 3 t zblk := by dsimp only [dat1]
theorem after1_4 (c : Dev nD) (t : Fin cfg1.N) : (dat1 V c).after 4 t = stgAt V c 4 t zblk := by dsimp only [dat1]
theorem after1_5 (c : Dev nD) (t : Fin cfg1.N) : (dat1 V c).after 5 t = stgAt V c 5 t zblk := by dsimp only [dat1]
theorem after1_6 (c : Dev nD) (t : Fin cfg1.N) : (dat1 V c).after 6 t
    = k1_pay1 (stgAt V c 0 t zblk) (stgAt V c 1 t zblk) (stgAt V c 2 t zblk) (stgAt V c 3 t zblk) (stgAt V c 4 t zblk) (stgAt V c 5 t zblk) := by dsimp only [dat1]

/-- A filled-out block, cut back to the rows inside the array, is the block: so filling any d with that cut is the block filled out with d. -/
theorem fill_cut_stgAt (c : Dev nD) (w : Fin cfg1.W) (t : Fin cfg1.N) (d z : (cfg1.win w).block.Idx → Elt F (cfg1.win w).elt) :
    (cfg1.win w).fill (cfg1.grid.coords t) d ((cfg1.win w).cut (cfg1.grid.coords t) (stgAt V c w t z)) = stgAt V c w t d := by
  unfold stgAt
  rw [(cfg1.win w).cut_fill]

/-- On a row inside the array a filled-out block holds the block's element, whatever fills it out. -/
theorem stgAt_xinj (c : Dev nD) (w : Fin cfg1.W) (t : Fin cfg1.N) (z : (cfg1.win w).block.Idx → Elt F (cfg1.win w).elt)
    (j : ((cfg1.win w).xblock (cfg1.grid.coords t)).Idx) :
    stgAt V c w t z ((cfg1.win w).xinj (cfg1.grid.coords t) j) = blkAt V c w t j :=
  (cfg1.win w).fill_xinj _ _ _ j

/-- Two payloads agree at an element where their operands do. -/
theorem pay_congr_at (a0 a1 a2 a3 a4 a5 b0 b1 b2 b3 b4 b5 : Vec F S4000x128 .f32) (j : S4000x128.Idx)
    (h0 : a0 j = b0 j) (h1 : a1 j = b1 j) (h2 : a2 j = b2 j) (h3 : a3 j = b3 j) (h4 : a4 j = b4 j) (h5 : a5 j = b5 j) :
    k1_pay1 a0 a1 a2 a3 a4 a5 j = k1_pay1 b0 b1 b2 b3 b4 b5 j := by
  rw [pay_apply, pay_apply, h0, h1, h2, h3, h4, h5]

/-- The payload of the six blocks filled out with anything, cut to the rows inside the array, is the payload of the blocks
    filled out with zeros cut likewise: the payload is pointwise and the seven windows cut alike (one block shape, one index map). -/
theorem out_fill (c : Dev nD) (t : Fin cfg1.N) (d0 d1 d2 d3 d4 d5 : S4000x128.Idx → Elt F .f32) :
    (cfg1.win 6).fill (cfg1.grid.coords t)
        (k1_pay1 (stgAt V c 0 t d0) (stgAt V c 1 t d1) (stgAt V c 2 t d2) (stgAt V c 3 t d3) (stgAt V c 4 t d4) (stgAt V c 5 t d5))
        ((cfg1.win 6).cut (cfg1.grid.coords t)
          (k1_pay1 (stgAt V c 0 t zblk) (stgAt V c 1 t zblk) (stgAt V c 2 t zblk) (stgAt V c 3 t zblk) (stgAt V c 4 t zblk) (stgAt V c 5 t zblk)))
      = k1_pay1 (stgAt V c 0 t d0) (stgAt V c 1 t d1) (stgAt V c 2 t d2) (stgAt V c 3 t d3) (stgAt V c 4 t d4) (stgAt V c 5 t d5) := by
  apply Window.fill_congr_cut
  funext j
  refine pay_congr_at _ _ _ _ _ _ _ _ _ _ _ _ _ ?_ ?_ ?_ ?_ ?_ ?_
  · exact (stgAt_xinj V c 0 t _ j).trans (stgAt_xinj V c 0 t _ j).symm
  · exact (stgAt_xinj V c 1 t _ j).trans (stgAt_xinj V c 1 t _ j).symm
  · exact (stgAt_xinj V c 2 t _ j).trans (stgAt_xinj V c 2 t _ j).symm
  · exact (stgAt_xinj V c 3 t _ j).trans (stgAt_xinj V c 3 t _ j).symm
  · exact (stgAt_xinj V c 4 t _ j).trans (stgAt_xinj V c 4 t _ j).symm
  · exact (stgAt_xinj V c 5 t _ j).trans (stgAt_xinj V c 5 t _ j).symm

/-! ## The body obligation, at a generic point -/

/-- What the body is called with at point t: the invariant, what the core owes, and each window's current buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: every window's buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ d, owns (c : Thread nD τ) (st1_6 t) fullShare ((cfg1.win 6).fill (cfg1.grid.coords t) d ((cfg1.win 6).cut (cfg1.grid.coords t) ((dat1 V c).after 6 t)))))

/-- The body at any point: the inputs' buffers hold their blocks filled out past the array's end with whatever was there,
    the output's anything; the inputs' are left as found and the output's at the payload of the six, which on the rows
    inside the array is what the proof data names. The invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 V c t d0, before1_1 V c t d1, before1_2 V c t d2, before1_3 V c t d3, before1_4 V c t d4, before1_5 V c t d5, before1_6 V c t d6]
  iapply (sound_kernel1 c Set.univ _ _ _ _ _ _ _ _ _ _ _ _ _ _ _
    (stgAt V c 0 t d0) (stgAt V c 1 t d1) (stgAt V c 2 t d2) (stgAt V c 3 t d3) (stgAt V c 4 t d4) (stgAt V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; rw [fill_cut_stgAt V c 0 t d0 zblk]; iexact H0
  isplitl [H1]; · iexists d1; rw [fill_cut_stgAt V c 1 t d1 zblk]; iexact H1
  isplitl [H2]; · iexists d2; rw [fill_cut_stgAt V c 2 t d2 zblk]; iexact H2
  isplitl [H3]; · iexists d3; rw [fill_cut_stgAt V c 3 t d3 zblk]; iexact H3
  isplitl [H4]; · iexists d4; rw [fill_cut_stgAt V c 4 t d4 zblk]; iexact H4
  isplitl [H5]; · iexists d5; rw [fill_cut_stgAt V c 5 t d5 zblk]; iexact H5
  iexists (k1_pay1 (stgAt V c 0 t d0) (stgAt V c 1 t d1) (stgAt V c 2 t d2) (stgAt V c 3 t d3) (stgAt V c 4 t d4) (stgAt V c 5 t d5))
  rw [out_fill V c t d0 d1 d2 d3 d4 d5]; iexact H6

theorem body_obligation1 (c : Dev nD) : BodyObligationLoose (dat1 (F := F) V c) (defs₀ (F := F)) Variants.none () Set.univ := by
  intro t
  rw [bigSep_W1, bigSep_W1]
  exact sound_body1 V c t

/-! ## The output array after the run -/

/-- What point t writes back is block t of the whole-array combination of the six arrays as the region finds them: on a row
    inside the array each filled-out input block holds its array's element at the place the output's block element sits
    (the seven windows have one block shape and one index map), and the payload is pointwise. -/
theorem flushed1_6 (c : Dev nD) (t : Fin cfg1.N) :
    (dat1 V c).flushed 6 t = ((cfg1.win 6).blk t).view.read (Elt F)
      (nodeOut (V c main_v44) (V c main_v45) (V c main_v46) (V c main_v47) (V c main_v48) (V c main_v49) : Buf (Elt F) ((c : Thread nD τ).loc main_v50)) := by
  show (cfg1.win 6).cut (cfg1.grid.coords t) ((dat1 V c).after 6 t) = _
  rw [after1_6]
  funext j
  show k1_pay1 _ _ _ _ _ _ ((cfg1.win 6).xinj (cfg1.grid.coords t) j)
    = nodeOut (V c main_v44) (V c main_v45) (V c main_v46) (V c main_v47) (V c main_v48) (V c main_v49) (((cfg1.win 6).blk t).view.emb j)
  rw [pay_apply, nodeOut_apply]
  have e0 : stgAt V c 0 t zblk ((cfg1.win 6).xinj (cfg1.grid.coords t) j) = V c main_v44 (((cfg1.win 6).blk t).view.emb j) :=
    (stgAt_xinj V c 0 t zblk j).trans rfl
  have e1 : stgAt V c 1 t zblk ((cfg1.win 6).xinj (cfg1.grid.coords t) j) = V c main_v45 (((cfg1.win 6).blk t).view.emb j) :=
    (stgAt_xinj V c 1 t zblk j).trans rfl
  have e2 : stgAt V c 2 t zblk ((cfg1.win 6).xinj (cfg1.grid.coords t) j) = V c main_v46 (((cfg1.win 6).blk t).view.emb j) :=
    (stgAt_xinj V c 2 t zblk j).trans rfl
  have e3 : stgAt V c 3 t zblk ((cfg1.win 6).xinj (cfg1.grid.coords t) j) = V c main_v47 (((cfg1.win 6).blk t).view.emb j) :=
    (stgAt_xinj V c 3 t zblk j).trans rfl
  have e4 : stgAt V c 4 t zblk ((cfg1.win 6).xinj (cfg1.grid.coords t) j) = V c main_v48 (((cfg1.win 6).blk t).view.emb j) :=
    (stgAt_xinj V c 4 t zblk j).trans rfl
  have e5 : stgAt V c 5 t zblk ((cfg1.win 6).xinj (cfg1.grid.coords t) j) = V c main_v49 (((cfg1.win 6).blk t).view.emb j) :=
    (stgAt_xinj V c 5 t zblk j).trans rfl
  rw [e0, e1, e2, e3, e4, e5]

/-- A row among point t's rows inside the array puts each of its 128 lanes in point t's block: along the lanes every block
    starts at lane 0 and spans all of them, at each of the four points. -/
theorem mem_blk1_6 (t : Fin cfg1.N) (i : S15625x128.Idx) (hlo : win1_6.index t 0 * 4000 ≤ (i 0 : Nat))
    (hhi : (i 0 : Nat) < win1_6.index t 0 * 4000 + win1_6.xsize (grid1.coords t) 0) :
    i ∈ ((cfg1.win 6).blk t).view.set := by
  show i ∈ ((View.whole main_v50).slice (win1_6.rect t)).set
  rw [View.set_slice_whole, Rect.mem_set_unit]
  have lanes : ∀ t : Fin cfg1.N, win1_6.index t 1 * win1_6.size 1 = 0 ∧ win1_6.xsize (grid1.coords t) 1 = 128 :=
    (by decide +kernel : ∀ t : Fin grid1.N, win1_6.index t 1 * win1_6.size 1 = 0 ∧ win1_6.xsize (grid1.coords t) 1 = 128)
  have hl : (i 1 : Nat) < 128 := (i 1).isLt
  intro a
  match a with
  | ⟨0, _⟩ => exact ⟨hlo, hhi⟩
  | ⟨1, _⟩ =>
    show win1_6.index t 1 * win1_6.size 1 ≤ (i 1 : Nat) ∧ (i 1 : Nat) < win1_6.index t 1 * win1_6.size 1 + win1_6.xsize (grid1.coords t) 1
    rw [(lanes t).1, (lanes t).2]; omega

/-- Where each point's block starts along the rows and how many of its rows are inside the array: 4000 each at the first
    three points, and 3625 at the last, whose block overhangs the array's 15625 rows. -/
theorem rows1_6 : (win1_6.index t1_0 0 * 4000 = 0 ∧ win1_6.xsize (grid1.coords t1_0) 0 = 4000)
    ∧ (win1_6.index t1_1 0 * 4000 = 4000 ∧ win1_6.xsize (grid1.coords t1_1) 0 = 4000)
    ∧ (win1_6.index t1_2 0 * 4000 = 8000 ∧ win1_6.xsize (grid1.coords t1_2) 0 = 4000)
    ∧ (win1_6.index t1_3 0 * 4000 = 12000 ∧ win1_6.xsize (grid1.coords t1_3) 0 = 3625) := by decide +kernel

/-- The four blocks' rows are 0‥3999, 4000‥7999, 8000‥11999 and 12000‥15624, together the array's: row r lies in the
    block of point r / 4000, and every point writes its block back. -/
theorem cover1_6 (i : S15625x128.Idx) : ∃ t : Fin cfg1.N, (cfg1.win 6).flush t = true ∧ i ∈ ((cfg1.win 6).blk t).view.set := by
  have hr : (i 0 : Nat) < 15625 := (i 0).isLt
  obtain ⟨⟨o0, n0⟩, ⟨o1, n1⟩, ⟨o2, n2⟩, ⟨o3, n3⟩⟩ := rows1_6
  rcases Nat.lt_or_ge (i 0 : Nat) 4000 with h0 | h0
  · exact ⟨t1_0, flush1_6 t1_0, mem_blk1_6 t1_0 i (by rw [o0]; omega) (by rw [o0, n0]; omega)⟩
  rcases Nat.lt_or_ge (i 0 : Nat) 8000 with h1 | h1
  · exact ⟨t1_1, flush1_6 t1_1, mem_blk1_6 t1_1 i (by rw [o1]; omega) (by rw [o1, n1]; omega)⟩
  rcases Nat.lt_or_ge (i 0 : Nat) 12000 with h2 | h2
  · exact ⟨t1_2, flush1_6 t1_2, mem_blk1_6 t1_2 i (by rw [o2]; omega) (by rw [o2, n2]; omega)⟩
  · exact ⟨t1_3, flush1_6 t1_3, mem_blk1_6 t1_3 i (by rw [o3]; omega) (by rw [o3, n3]; omega)⟩

theorem arrAt_out1 (c : Dev nD) :
    (dat1 V c).arrAt 6 cfg1.N = (nodeOut (V c main_v44) (V c main_v45) (V c main_v46) (V c main_v47) (V c main_v48) (V c main_v49) : Buf (Elt F) ((c : Thread nD τ).loc main_v50)) := by
  exact (dat1 V c).arrAt_eq_of_cover 6 _ (fun t _ => flushed1_6 V c t) (fun i => cover1_6 i)

end Cert.Kernel.Node

end
-- ==== Proof.Kernel.Whole.lean ====
import proofs.«113954_j16939351015518_1_alg».proof.Proof.Kernel.Edge
import proofs.«113954_j16939351015518_1_alg».proof.Proof.Kernel.Node
import proofs.«113954_j16939351015518_1_alg».proof.Proof.Gen.Kernel.Regions
import Idealize.ShloMosaic.Lib.Pipeline.RegionsLoop
import Idealize.ShloMosaic.Lib.Pipeline.FrameSuffix

/-!
The whole program as five items: the host operations that cut out the node column, gather each edge's two
end values and lay them out as [31250, 128] arrays; the edge kernel; the host operations that scatter the three
per-edge columns onto the nodes and lay the node arrays out as [15625, 128]; the node kernel; the reshape of its
result. The buffer contents between items are a fold from the launch memory: a host stretch applies its
operations, a kernel leaves its output array at what its write-backs compose to and every other buffer as it was.
Every weakly fair execution terminates with every unscoped buffer at the fold's last value.
-/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev W0 (c : Dev nD) : Valuation τ sig (Elt F) := fun b => m (c, b)
/-- After the first host stretch: the edge kernel's entry. -/
abbrev W1 (c : Dev nD) : Valuation τ sig (Elt F) := StableHlo.after hostOps0 (W0 m c)
/-- The same, read at the TensorCore's references. -/
abbrev E1 : (c : Dev nD) → (b : Ref sig .tc) → Buf (Elt F) ((c : Thread nD τ).loc b) := fun c b => W1 m c b
/-- After the edge kernel: its arrays at what the pipeline leaves, every other buffer as entered. -/
def W2 (c : Dev nD) : Valuation τ sig (Elt F) :=
  Pipeline.withArrays spec0 c (W1 m c) fun w => (Edge.dat0 (E1 m) c).arrAt w cfg0.N
theorem W2_arr (c : Dev nD) (w : Fin cfg0.W) :
    W2 m c (Proc.devRef .tc (Pipeline.arrRef spec0 w)) = (Edge.dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (Edge.dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the node kernel's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After the node kernel. -/
def W4 (c : Dev nD) : Valuation τ sig (Elt F) :=
  Pipeline.withArrays spec1 c (W3 m c) fun w => (Node.dat1 (E3 m) c).arrAt w cfg1.N
theorem W4_arr (c : Dev nD) (w : Fin cfg1.W) :
    W4 m c (Proc.devRef .tc (Pipeline.arrRef spec1 w)) = (Node.dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (Node.dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the last host stretch: the end. -/
abbrev W5 (c : Dev nD) : Valuation τ sig (Elt F) := StableHlo.after hostOps2 (W4 m c)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The arguments end as launched: no host operation writes one and no kernel has one as a window's array -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of_ne m c main_arg4 (by decide)).trans <| (W3_of m c main_arg4 (by decide)).trans <|
    (W2_of_ne m c main_arg4 (by decide)).trans <| (W1_of m c main_arg4 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Edge.dat0 (E1 m) c
  | ⟨1, _⟩ => fun c => Node.dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W5 m c) ∗ ∃ r, prngReg c r)

/-! ## The kernels as segments -/

set_option backward.isDefEq.respectTransparency.types false in
/-- Region 0 over the thread state: entered with every unscoped buffer at the contents before it, left with them at the
    contents after it; its arrays are split out of the unscoped buffers at entry and put back at exit; the generator
    register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Edge.body_obligation0 (E1 m) c
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers at entry and put back at exit; the generator
    register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Node.body_obligation1 (E3 m) c
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (mainSegs m) := (main_chain c).trans (by chain_rfl)

set_option backward.isDefEq.respectTransparency.types false in
/-- From any memory with zero counters every weakly fair execution of the program terminates, nothing faulting, and every
    final state holds every unscoped buffer at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun c =>
      (show (iprop(StableHlo.held (c : Thread nD τ) (Pipeline.ucRefs τ sig) (W5 m c) ∗ Rest c) : sProp 𝕄)
          ⊢ iprop(Tend m c ∗ ∃ W, owes (c : Thread nD τ) (0 : CellTallies nD τ sig Unit) W) from by
        unfold Rest Tend
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Whole

end
-- ==== Proof.KernelIdeal.Edge.lean ====
import proofs.«113954_j16939351015518_1_alg».proof.Proof.Gen.KernelIdeal.Launch
import proofs.«113954_j16939351015518_1_alg».proof.Proof.Gen.KernelIdeal.Skeleton
import proofs.«113954_j16939351015518_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The edge difference over whole arrays. -/
def edgeOut (usrc udst ea : FVec F S31250x128 .f32) : FVec F S31250x128 .f32 :=
  divf (subf udst usrc) ea

/-- Window w's block at point t, the part inside the array, read off the entry contents. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staging buffer holding the block, zero past the array's end. -/
def stgAt (c : Dev nD) (w : Fin cfg0.W) (t : Fin cfg0.N) (z : (cfg0.win w).block.Idx → Elt F (cfg0.win w).elt) :
    (cfg0.win w).block.Idx → Elt F (cfg0.win w).elt :=
  (cfg0.win w).fill (cfg0.grid.coords t) z (blkAt V c w t)

def zblk : S4000x128.Idx → Elt F .f32 := fun _ => Scalar.ofBits .f32 0#32

def dat0 (c : Dev nD) : Dat τ (Elt F) Unit ℕ (UR sig nD τ) ℕ cfg0 c where
  A w := V c (Pipeline.arrRef spec0 w)
  after w t := match w with
    | ⟨0, _⟩ => stgAt V c 0 t zblk
    | ⟨1, _⟩ => stgAt V c 1 t zblk
    | ⟨2, _⟩ => stgAt V c 2 t zblk
    | ⟨3, _⟩ => k0_pay1 (stgAt V c 1 t zblk) (stgAt V c 0 t zblk) (stgAt V c 2 t zblk)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## The payload, element by element

Every operation of the payload is a pointwise vector operation or a cast between equal shapes (the identity), so
element j of the result is a scalar expression of element j of each operand, and of nothing else. -/

/-- Element j of the payload: (a j − b j) / e j. -/
theorem k0_pay1_apply (a b e : Vec F S4000x128 .f32) (j : S4000x128.Idx) :
    k0_pay1 a b e j = FloatOps.divf (FloatOps.subf (a j) (b j)) (e j) := by
  unfold k0_pay1
  simp only [shapeCast_self]
  rfl

/-- Element i of the edge difference over whole arrays: (udst i − usrc i) / ea i. -/
theorem edgeOut_apply (usrc udst ea : FVec F S31250x128 .f32) (i : S31250x128.Idx) :
    edgeOut usrc udst ea i = FloatOps.divf (FloatOps.subf (udst i) (usrc i)) (ea i) := rfl

/-! ## What the proof data states, window by window -/

theorem after0_0 (c : Dev nD) (t : Fin cfg0.N) : (dat0 V c).after 0 t = stgAt V c 0 t zblk := by dsimp only [dat0]
theorem after0_1 (c : Dev nD) (t : Fin cfg0.N) : (dat0 V c).after 1 t = stgAt V c 1 t zblk := by dsimp only [dat0]
theorem after0_2 (c : Dev nD) (t : Fin cfg0.N) : (dat0 V c).after 2 t = stgAt V c 2 t zblk := by dsimp only [dat0]
theorem after0_3 (c : Dev nD) (t : Fin cfg0.N) : (dat0 V c).after 3 t
    = k0_pay1 (stgAt V c 1 t zblk) (stgAt V c 0 t zblk) (stgAt V c 2 t zblk) := by dsimp only [dat0]

/-- A block filled out past the array's end, cut back to the rows inside the array, is the block. -/
theorem cut_stgAt (c : Dev nD) (w : Fin cfg0.W) (t : Fin cfg0.N) (z) :
    (cfg0.win w).cut (cfg0.grid.coords t) (stgAt V c w t z) = blkAt V c w t :=
  (cfg0.win w).cut_fill _ _ _

/-! ## What each staging buffer holds when the body runs -/

/-- The output window is never fetched. -/
theorem fetch0_3 : ∀ t : Fin cfg0.N, (cfg0.win 3).fetch t = false :=
  (by decide +kernel : ∀ t : Fin grid0.N, win0_3.fetch t = false)

/-- An input's buffer, fetched at every point, holds its block on the rows inside the array and, past the
    array's end, whatever it held (d). -/
theorem before0_0 (c : Dev nD) (t : Fin cfg0.N) (d) :
    (dat0 V c).before 0 t d = (cfg0.win 0).fill (cfg0.grid.coords t) d (blkAt V c 0 t) := by
  unfold Dat.before; rw [if_pos (fetch0_0 t)]; rfl
theorem before0_1 (c : Dev nD) (t : Fin cfg0.N) (d) :
    (dat0 V c).before 1 t d = (cfg0.win 1).fill (cfg0.grid.coords t) d (blkAt V c 1 t) := by
  unfold Dat.before; rw [if_pos (fetch0_1 t)]; rfl
theorem before0_2 (c : Dev nD) (t : Fin cfg0.N) (d) :
    (dat0 V c).before 2 t d = (cfg0.win 2).fill (cfg0.grid.coords t) d (blkAt V c 2 t) := by
  unfold Dat.before; rw [if_pos (fetch0_2 t)]; rfl
/-- The output's buffer holds contents nothing names: at the first point what it held, later what the
    previous point's write-back left, which is stated of no row. -/
theorem before0_3 (c : Dev nD) (t : Fin cfg0.N) (d) : (dat0 V c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body's triple, on arbitrary whole staging contents -/

/-- The whole staging block as a rectangle of itself: every load and the store of the body go through it. -/
abbrev rAll : Rect S4000x128 := Rect.unit (s := S4000x128) ![0, 0] S4000x128.size inb_S4000x128_S4000x128_0_0

/-- What the body's one store leaves in the output's staging buffer, from the contents x0, x1, x2 of the three
    inputs' buffers: the payload of the three whole loads, laid over the whole block. -/
def outStore (x0 x1 x2 : Vec F S4000x128 .f32) : Vec F S4000x128 .f32 :=
  View.canon [⟨rAll, k0_pay1 (View.ld x1 rAll) (View.ld x0 rAll) (View.ld x2 rAll)⟩]

/-- The one store covers the block. -/
theorem cover_rAll (p0 : Vec F S4000x128 .f32) (y : S4000x128.Idx) :
    ∃ pc ∈ ([⟨rAll, p0⟩] : List (View.Piece (Elt F) S4000x128 .f32)), y ∈ pc.1.set :=
  View.cover_of_tiled [⟨rAll, p0⟩] S4000x128.size (by rfl) y

set_option maxHeartbeats 1000000 in
/-- The kernel function on whole staging memrefs, the inputs' at contents x0, x1, x2 and the output's at
    anything: four whole loads (the output's read by nothing) and one whole store; the inputs keep their
    contents and the output's buffer ends at `outStore x0 x1 x2`. -/
theorem sound_kernel0 (c : Dev nD) (E : Set ℕ) (i : grid0.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (x0 x1 x2 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outStore x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_rAll _)

/-! ## The store's contents are the payload of the whole buffers -/

/-- The whole block's rectangle places an index at itself. -/
theorem rAll_idx (j : S4000x128.Idx) : rAll.idx j = j := by
  funext a; apply Fin.ext
  show (![0, 0] : Fin 2 → Nat) a + 1 * (j a).val = (j a).val
  have h : (![0, 0] : Fin 2 → Nat) a = 0 := by fin_cases a <;> rfl
  omega

/-- So a whole load reads the contents, a whole store leaves its payload: the output's buffer ends at the
    payload of the three inputs' buffers. -/
theorem outStore_eq (x0 x1 x2 : Vec F S4000x128 .f32) : outStore x0 x1 x2 = k0_pay1 x1 x0 x2 := by
  have hld : ∀ x : Vec F S4000x128 .f32, View.ld x rAll = x := fun x => funext fun j => congrArg x (rAll_idx j)
  unfold outStore
  rw [hld, hld, hld]
  funext j
  have h := View.canon_cons_emb (Val := Elt F) (e := .f32) rAll (k0_pay1 x1 x0 x2 : rAll.shape.Idx → Elt F .f32) [] j
  rw [show rAll.emb j = j from rAll_idx j] at h
  exact h

/-! ## The payload of buffers that agree on the rows inside the array -/

/-- The four windows cut a staging block alike (one index map, one block shape), and the payload is
    pointwise: operands that agree on the rows a point moves give payloads that agree there. The rows of a
    staging block past the array's end never reach a row inside it. -/
theorem cut_pay (i : grid0.Coords) (a b e a' b' e' : Vec F S4000x128 .f32)
    (ha : win0_1.cut i a = win0_1.cut i a') (hb : win0_0.cut i b = win0_0.cut i b')
    (he : win0_2.cut i e = win0_2.cut i e') :
    win0_3.cut i (k0_pay1 a b e) = win0_3.cut i (k0_pay1 a' b' e') := by
  funext j
  show k0_pay1 a b e (win0_3.xinj i j) = k0_pay1 a' b' e' (win0_3.xinj i j)
  rw [k0_pay1_apply, k0_pay1_apply]
  have h1 : a (win0_3.xinj i j) = a' (win0_3.xinj i j) := congrFun ha j
  have h2 : b (win0_3.xinj i j) = b' (win0_3.xinj i j) := congrFun hb j
  have h3 : e (win0_3.xinj i j) = e' (win0_3.xinj i j) := congrFun he j
  rw [h1, h2, h3]

/-! ## The body obligation -/

set_option maxHeartbeats 1000000 in
/-- At every point: the inputs' buffers arrive holding their blocks filled out with anything past the array's
    end, the output's holding anything; the inputs leave as they came, which on the rows inside the array is
    their block; the output leaves at the payload of the three buffers, which on the rows inside the array is
    the payload of the three blocks, whatever lay past the array's end. Every window is loose: nothing more
    is asked. The invariant and what the core owes pass through unread. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  -- on the rows inside the array, the payload of the three buffers is the payload of the three blocks
  have hpay : (cfg0.win 3).cut (cfg0.grid.coords t)
        (k0_pay1 ((cfg0.win 1).fill (cfg0.grid.coords t) d1 (blkAt V c 1 t))
          ((cfg0.win 0).fill (cfg0.grid.coords t) d0 (blkAt V c 0 t))
          ((cfg0.win 2).fill (cfg0.grid.coords t) d2 (blkAt V c 2 t)))
      = (cfg0.win 3).cut (cfg0.grid.coords t)
        (k0_pay1 (stgAt V c 1 t zblk) (stgAt V c 0 t zblk) (stgAt V c 2 t zblk)) :=
    cut_pay (grid0.coords t) _ _ _ _ _ _
      (((cfg0.win 1).cut_fill _ _ _).trans (cut_stgAt V c 1 t zblk).symm)
      (((cfg0.win 0).cut_fill _ _ _).trans (cut_stgAt V c 0 t zblk).symm)
      (((cfg0.win 2).cut_fill _ _ _).trans (cut_stgAt V c 2 t zblk).symm)
  iapply (sound_kernel0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win 0).fill (cfg0.grid.coords t) d0 (blkAt V c 0 t))
    ((cfg0.win 1).fill (cfg0.grid.coords t) d1 (blkAt V c 1 t))
    ((cfg0.win 2).fill (cfg0.grid.coords t) d2 (blkAt V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  rw [outStore_eq]
  isplitl [H0]
  · iexists d0; rw [cut_stgAt V c 0 t zblk]; iexact H0
  isplitl [H1]
  · iexists d1; rw [cut_stgAt V c 1 t zblk]; iexact H1
  isplitl [H2]
  · iexists d2; rw [cut_stgAt V c 2 t zblk]; iexact H2
  · iexists _; rw [(cfg0.win 3).fill_congr_cut (cfg0.grid.coords t) hpay]; iexact H3

/-! ## The output array after the run -/

/-- The per-point facts of the output window, decided over the eight points: point t's block index is (t, 0); it
    moves 4000 rows, but the last point, whose block overhangs the array, 3250; and every lane. -/
theorem blk_facts0_3 : ∀ t : Fin grid0.N, win0_3.index t 0 = t.val ∧ win0_3.index t 1 = 0
    ∧ win0_3.xsize (grid0.coords t) 0 = (if t.val = 7 then 3250 else 4000) ∧ win0_3.xsize (grid0.coords t) 1 = 128 := by
  decide +kernel

/-- An index of the array whose row is among the rows point t's block holds inside the array is in that block
    (every lane is: the blocks span the lanes). -/
theorem mem_blk0_3 (t : Fin cfg0.N) (i : S31250x128.Idx)
    (h : t.val * 4000 ≤ (i 0 : Nat) ∧ (i 0 : Nat) < t.val * 4000 + (if t.val = 7 then 3250 else 4000)) :
    i ∈ ((cfg0.win 3).blk t).view.set := by
  show i ∈ ((View.whole main_v28).slice (win0_3.rect t)).set
  rw [View.set_slice_whole, Rect.mem_set_unit]
  have h1 : (i 1 : Nat) < 128 := (i 1).isLt
  obtain ⟨e0, e1, e2, e3⟩ := blk_facts0_3 t
  intro a
  match a with
  | ⟨0, _⟩ =>
    change win0_3.index t 0 * 4000 ≤ (i 0 : Nat) ∧ (i 0 : Nat) < win0_3.index t 0 * 4000 + win0_3.xsize (grid0.coords t) 0
    rw [e0, e2]; exact h
  | ⟨1, _⟩ =>
    change win0_3.index t 1 * 128 ≤ (i 1 : Nat) ∧ (i 1 : Nat) < win0_3.index t 1 * 128 + win0_3.xsize (grid0.coords t) 1
    rw [e1, e3]; omega

/-- Every index of the array lies in the block of the point its row falls to: rows 4000 t ‥ 4000 t + 3999 at
    points 0 ‥ 6, rows 28000 ‥ 31249 at point 7. -/
theorem cover0_3 (i : S31250x128.Idx) :
    ∃ t : Fin cfg0.N, (cfg0.win 3).flush t = true ∧ i ∈ ((cfg0.win 3).blk t).view.set := by
  have hi0 : (i 0 : Nat) < 31250 := (i 0).isLt
  have hN : cfg0.N = 8 := N_0
  refine ⟨⟨(i 0 : Nat) / 4000, by rw [hN]; omega⟩, flush0_3 _, mem_blk0_3 _ i ?_⟩
  show (i 0 : Nat) / 4000 * 4000 ≤ (i 0 : Nat) ∧ (i 0 : Nat) < (i 0 : Nat) / 4000 * 4000 + (if (i 0 : Nat) / 4000 = 7 then 3250 else 4000)
  split <;> omega

/-- What point t writes back — the rows inside the array of what the body left in the output's buffer — is point
    t's block of the edge difference over whole arrays: the payload is pointwise, a filled block read on a row
    inside the array is the block there, a block read is the array read at the block's place in it, and the four
    windows' blocks sit at one place (one index map, one block shape). -/
theorem flushed0_3 (c : Dev nD) (t : Fin cfg0.N) :
    (dat0 V c).flushed 3 t = ((cfg0.win 3).blk t).view.read (Elt F)
      (edgeOut (V c main_v25) (V c main_v26) (V c main_v27) : Buf (Elt F) ((c : Thread nD τ).loc main_v28)) := by
  show (cfg0.win 3).cut (cfg0.grid.coords t) ((dat0 V c).after 3 t) = _
  rw [after0_3]
  funext j
  show k0_pay1 (stgAt V c 1 t zblk) (stgAt V c 0 t zblk) (stgAt V c 2 t zblk) (win0_3.xinj (grid0.coords t) j) = _
  rw [k0_pay1_apply]
  have h0 : stgAt V c 0 t zblk (win0_3.xinj (grid0.coords t) j) = blkAt V c 0 t j := (cfg0.win 0).fill_xinj _ _ _ j
  have h1 : stgAt V c 1 t zblk (win0_3.xinj (grid0.coords t) j) = blkAt V c 1 t j := (cfg0.win 1).fill_xinj _ _ _ j
  have h2 : stgAt V c 2 t zblk (win0_3.xinj (grid0.coords t) j) = blkAt V c 2 t j := (cfg0.win 2).fill_xinj _ _ _ j
  rw [h0, h1, h2]
  rfl

theorem arrAt_out0 (c : Dev nD) :
    (dat0 V c).arrAt 3 cfg0.N = (edgeOut (V c main_v25) (V c main_v26) (V c main_v27) : Buf (Elt F) ((c : Thread nD τ).loc main_v28)) :=
  (dat0 V c).arrAt_eq_of_cover 3 _ (fun t _ => flushed0_3 V c t) cover0_3

end Cert.KernelIdeal.Edge

end
-- ==== Proof.KernelIdeal.Node.lean ====
import proofs.«113954_j16939351015518_1_alg».proof.Proof.Gen.KernelIdeal.Launch
import proofs.«113954_j16939351015518_1_alg».proof.Proof.Gen.KernelIdeal.Skeleton
import proofs.«113954_j16939351015518_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The node combination over whole arrays: temporal difference over the step, plus the mean edge difference (zero where no edge arrives) times the node value, minus the viscosity times the second difference, all times the mask. -/
def nodeOut (ut ut1 sums cnt se mask : FVec F S15625x128 .f32) : FVec F S15625x128 .f32 :=
  mulf (subf (addf (divf (subf ut ut1) (broadcast S15625x128 (Scalar.ofBits .f32 0x3C23D70A#32)))
                   (mulf (select (cmpf .ogt cnt (broadcast S15625x128 (Scalar.ofBits .f32 0x00000000#32)))
                                 (divf sums (maximumf cnt (broadcast S15625x128 (Scalar.ofBits .f32 0x3F800000#32))))
                                 (broadcast S15625x128 (Scalar.ofBits .f32 0x00000000#32))) ut))
             (mulf (broadcast S15625x128 (Scalar.ofBits .f32 0x3C23D70A#32))
                   (divf (subf se (mulf (broadcast S15625x128 (Scalar.ofBits .f32 0x40000000#32)) ut))
                         (broadcast S15625x128 (Scalar.ofBits .f32 0x358637BD#32)))))
       mask

/-- Window w's block at point t, the part inside the array, read off the entry contents. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A staging buffer holding the block, zero past the array's end. -/
def stgAt (c : Dev nD) (w : Fin cfg1.W) (t : Fin cfg1.N) (z : (cfg1.win w).block.Idx → Elt F (cfg1.win w).elt) :
    (cfg1.win w).block.Idx → Elt F (cfg1.win w).elt :=
  (cfg1.win w).fill (cfg1.grid.coords t) z (blkAt V c w t)

def zblk : S4000x128.Idx → Elt F .f32 := fun _ => Scalar.ofBits .f32 0#32

def dat1 (c : Dev nD) : Dat τ (Elt F) Unit ℕ (UR sig nD τ) ℕ cfg1 c where
  A w := V c (Pipeline.arrRef spec1 w)
  after w t := match w with
    | ⟨0, _⟩ => stgAt V c 0 t zblk
    | ⟨1, _⟩ => stgAt V c 1 t zblk
    | ⟨2, _⟩ => stgAt V c 2 t zblk
    | ⟨3, _⟩ => stgAt V c 3 t zblk
    | ⟨4, _⟩ => stgAt V c 4 t zblk
    | ⟨5, _⟩ => stgAt V c 5 t zblk
    | ⟨6, _⟩ => k1_pay1 (stgAt V c 0 t zblk) (stgAt V c 1 t zblk) (stgAt V c 2 t zblk) (stgAt V c 3 t zblk) (stgAt V c 4 t zblk) (stgAt V c 5 t zblk)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The combination at one element. -/
def nodeS (a0 a1 a2 a3 a4 a5 : F .f32) : F .f32 :=
  FloatOps.mulf (FloatOps.subf (FloatOps.addf (FloatOps.divf (FloatOps.subf a0 a1) (Scalar.ofBits .f32 0x3C23D70A#32))
      (FloatOps.mulf (Scalar.select (FloatOps.cmpf .ogt a3 (Scalar.ofBits .f32 0x00000000#32))
          (FloatOps.divf a2 (FloatOps.maximumf a3 (Scalar.ofBits .f32 0x3F800000#32))) (Scalar.ofBits .f32 0x00000000#32)) a0))
    (FloatOps.mulf (Scalar.ofBits .f32 0x3C23D70A#32)
      (FloatOps.divf (FloatOps.subf a4 (FloatOps.mulf (Scalar.ofBits .f32 0x40000000#32) a0)) (Scalar.ofBits .f32 0x358637BD#32)))) a5

/-- The whole-array combination at an index is the one-element combination of the arrays' elements there. -/
theorem nodeOut_apply (ut ut1 sums cnt se mask : FVec F S15625x128 .f32) (i : S15625x128.Idx) :
    nodeOut ut ut1 sums cnt se mask i = nodeS (ut i) (ut1 i) (sums i) (cnt i) (se i) (mask i) := rfl

/-- The body's payload is pointwise: element j of the result is the one-element combination of element j of each
    operand (every operation in it is a pointwise vector operation, a broadcast constant, or a cast between equal shapes). -/
theorem pay_apply (v0 v2 v4 v6 v8 v10 : Vec F S4000x128 .f32) (j : S4000x128.Idx) :
    k1_pay1 v0 v2 v4 v6 v8 v10 j = nodeS (v0 j) (v2 j) (v4 j) (v6 j) (v8 j) (v10 j) := by
  unfold k1_pay1
  simp only [shapeCast_self]
  rfl

/-- The zero offsets of a whole-buffer access, as a constant function. -/
theorem hz : (![0, 0] : Fin 2 → Nat) = fun _ => 0 := funext fun a => by fin_cases a <;> rfl

set_option maxHeartbeats 1000000 in
/-- The kernel body on whole staging memrefs, the six inputs' at read contents x0 … x5 and the output's at anything:
    it runs to the continuation holding the inputs' as they were and the output's at the payload of the six. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (arg7 : Memref sig .tc .vmem S4000x128 .f32) (harg7 : arg7.IsWhole)
    (x0 x1 x2 x3 x4 x5 : Vec F S4000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x1 x2 x3 x4 x5)) -∗ K ⟨⟩))
      ⊢ wp frame (wpE (defs₀ (F := F)) Variants.none c none) E
          (cc1__node_combine_kernel i arg1 harg1 arg2 harg2 arg3 harg3 arg4 harg4 arg5 harg5 arg6 harg6 arg7 harg7) K := by
  simp only [cc1__node_combine_kernel_eq_skeleton]; unfold cc1__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz inb_S4000x128_S4000x128_0_0 y⟩),
    View.canon_unit_zero hz]
  simp only [View.readAt_eq_ld, View.ld_unit_zero (S := S4000x128) hz]

/-! ## What the body finds in each window's buffer -/

/-- An input window is fetched at every point: its buffer holds the block on the rows inside the array and
    whatever it held (d) past the array's end. -/
theorem before_in (c : Dev nD) (w : Fin cfg1.W) (t : Fin cfg1.N) (hf : (cfg1.win w).fetch t = true)
    (d : (cfg1.win w).block.Idx → Elt F (cfg1.win w).elt) : (dat1 V c).before w t d = stgAt V c w t d := by
  rw [(dat1 V c).before_fetched w t hf d]
  unfold Dat.fetched Dat.blockOf stgAt blkAt
  rw [A_eq1]

theorem before1_0 (c : Dev nD) (t : Fin cfg1.N) (d) : (dat1 V c).before 0 t d = stgAt V c 0 t d := before_in V c 0 t (fetch1_0 t) d
theorem before1_1 (c : Dev nD) (t : Fin cfg1.N) (d) : (dat1 V c).before 1 t d = stgAt V c 1 t d := before_in V c 1 t (fetch1_1 t) d
theorem before1_2 (c : Dev nD) (t : Fin cfg1.N) (d) : (dat1 V c).before 2 t d = stgAt V c 2 t d := before_in V c 2 t (fetch1_2 t) d
theorem before1_3 (c : Dev nD) (t : Fin cfg1.N) (d) : (dat1 V c).before 3 t d = stgAt V c 3 t d := before_in V c 3 t (fetch1_3 t) d
theorem before1_4 (c : Dev nD) (t : Fin cfg1.N) (d) : (dat1 V c).before 4 t d = stgAt V c 4 t d := before_in V c 4 t (fetch1_4 t) d
theorem before1_5 (c : Dev nD) (t : Fin cfg1.N) (d) : (dat1 V c).before 5 t d = stgAt V c 5 t d := before_in V c 5 t (fetch1_5 t) d

/-- The output window is never fetched, and the point before wrote it back: its buffer holds contents nothing names. -/
theorem before1_6 (c : Dev nD) (t : Fin cfg1.N) (d) : (dat1 V c).before 6 t d = d := by
  refine (dat1 V c).before_out_reset 6 rfl t ?_ d
  by_cases h0 : t.val = 0
  · exact .inl h0
  · exact .inr ⟨h0, flush1_6 _⟩

/-! ## What the body leaves, window by window -/

theorem after1_0 (c : Dev nD) (t : Fin cfg1.N) : (dat1 V c).after 0 t = stgAt V c 0 t zblk := by dsimp only [dat1]
theorem after1_1 (c : Dev nD) (t : Fin cfg1.N) : (dat1 V c).after 1 t = stgAt V c 1 t zblk := by dsimp only [dat1]
theorem after1_2 (c : Dev nD) (t : Fin cfg1.N) : (dat1 V c).after 2 t = stgAt V c 2 t zblk := by dsimp only [dat1]
theorem after1_3 (c : Dev nD) (t : Fin cfg1.N) : (dat1 V c).after 3 t = stgAt V c 3 t zblk := by dsimp only [dat1]
theorem after1_4 (c : Dev nD) (t : Fin cfg1.N) : (dat1 V c).after 4 t = stgAt V c 4 t zblk := by dsimp only [dat1]
theorem after1_5 (c : Dev nD) (t : Fin cfg1.N) : (dat1 V c).after 5 t = stgAt V c 5 t zblk := by dsimp only [dat1]
theorem after1_6 (c : Dev nD) (t : Fin cfg1.N) : (dat1 V c).after 6 t
    = k1_pay1 (stgAt V c 0 t zblk) (stgAt V c 1 t zblk) (stgAt V c 2 t zblk) (stgAt V c 3 t zblk) (stgAt V c 4 t zblk) (stgAt V c 5 t zblk) := by dsimp only [dat1]

/-- A filled-out block, cut back to the rows inside the array, is the block: so filling any d with that cut is the block filled out with d. -/
theorem fill_cut_stgAt (c : Dev nD) (w : Fin cfg1.W) (t : Fin cfg1.N) (d z : (cfg1.win w).block.Idx → Elt F (cfg1.win w).elt) :
    (cfg1.win w).fill (cfg1.grid.coords t) d ((cfg1.win w).cut (cfg1.grid.coords t) (stgAt V c w t z)) = stgAt V c w t d := by
  unfold stgAt
  rw [(cfg1.win w).cut_fill]

/-- On a row inside the array a filled-out block holds the block's element, whatever fills it out. -/
theorem stgAt_xinj (c : Dev nD) (w : Fin cfg1.W) (t : Fin cfg1.N) (z : (cfg1.win w).block.Idx → Elt F (cfg1.win w).elt)
    (j : ((cfg1.win w).xblock (cfg1.grid.coords t)).Idx) :
    stgAt V c w t z ((cfg1.win w).xinj (cfg1.grid.coords t) j) = blkAt V c w t j :=
  (cfg1.win w).fill_xinj _ _ _ j

/-- Two payloads agree at an element where their operands do. -/
theorem pay_congr_at (a0 a1 a2 a3 a4 a5 b0 b1 b2 b3 b4 b5 : Vec F S4000x128 .f32) (j : S4000x128.Idx)
    (h0 : a0 j = b0 j) (h1 : a1 j = b1 j) (h2 : a2 j = b2 j) (h3 : a3 j = b3 j) (h4 : a4 j = b4 j) (h5 : a5 j = b5 j) :
    k1_pay1 a0 a1 a2 a3 a4 a5 j = k1_pay1 b0 b1 b2 b3 b4 b5 j := by
  rw [pay_apply, pay_apply, h0, h1, h2, h3, h4, h5]

/-- The payload of the six blocks filled out with anything, cut to the rows inside the array, is the payload of the blocks
    filled out with zeros cut likewise: the payload is pointwise and the seven windows cut alike (one block shape, one index map). -/
theorem out_fill (c : Dev nD) (t : Fin cfg1.N) (d0 d1 d2 d3 d4 d5 : S4000x128.Idx → Elt F .f32) :
    (cfg1.win 6).fill (cfg1.grid.coords t)
        (k1_pay1 (stgAt V c 0 t d0) (stgAt V c 1 t d1) (stgAt V c 2 t d2) (stgAt V c 3 t d3) (stgAt V c 4 t d4) (stgAt V c 5 t d5))
        ((cfg1.win 6).cut (cfg1.grid.coords t)
          (k1_pay1 (stgAt V c 0 t zblk) (stgAt V c 1 t zblk) (stgAt V c 2 t zblk) (stgAt V c 3 t zblk) (stgAt V c 4 t zblk) (stgAt V c 5 t zblk)))
      = k1_pay1 (stgAt V c 0 t d0) (stgAt V c 1 t d1) (stgAt V c 2 t d2) (stgAt V c 3 t d3) (stgAt V c 4 t d4) (stgAt V c 5 t d5) := by
  apply Window.fill_congr_cut
  funext j
  refine pay_congr_at _ _ _ _ _ _ _ _ _ _ _ _ _ ?_ ?_ ?_ ?_ ?_ ?_
  · exact (stgAt_xinj V c 0 t _ j).trans (stgAt_xinj V c 0 t _ j).symm
  · exact (stgAt_xinj V c 1 t _ j).trans (stgAt_xinj V c 1 t _ j).symm
  · exact (stgAt_xinj V c 2 t _ j).trans (stgAt_xinj V c 2 t _ j).symm
  · exact (stgAt_xinj V c 3 t _ j).trans (stgAt_xinj V c 3 t _ j).symm
  · exact (stgAt_xinj V c 4 t _ j).trans (stgAt_xinj V c 4 t _ j).symm
  · exact (stgAt_xinj V c 5 t _ j).trans (stgAt_xinj V c 5 t _ j).symm

/-! ## The body obligation, at a generic point -/

/-- What the body is called with at point t: the invariant, what the core owes, and each window's current buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: every window's buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ d, owns (c : Thread nD τ) (st1_6 t) fullShare ((cfg1.win 6).fill (cfg1.grid.coords t) d ((cfg1.win 6).cut (cfg1.grid.coords t) ((dat1 V c).after 6 t)))))

/-- The body at any point: the inputs' buffers hold their blocks filled out past the array's end with whatever was there,
    the output's anything; the inputs' are left as found and the output's at the payload of the six, which on the rows
    inside the array is what the proof data names. The invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 V c t d0, before1_1 V c t d1, before1_2 V c t d2, before1_3 V c t d3, before1_4 V c t d4, before1_5 V c t d5, before1_6 V c t d6]
  iapply (sound_kernel1 c Set.univ _ _ _ _ _ _ _ _ _ _ _ _ _ _ _
    (stgAt V c 0 t d0) (stgAt V c 1 t d1) (stgAt V c 2 t d2) (stgAt V c 3 t d3) (stgAt V c 4 t d4) (stgAt V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; rw [fill_cut_stgAt V c 0 t d0 zblk]; iexact H0
  isplitl [H1]; · iexists d1; rw [fill_cut_stgAt V c 1 t d1 zblk]; iexact H1
  isplitl [H2]; · iexists d2; rw [fill_cut_stgAt V c 2 t d2 zblk]; iexact H2
  isplitl [H3]; · iexists d3; rw [fill_cut_stgAt V c 3 t d3 zblk]; iexact H3
  isplitl [H4]; · iexists d4; rw [fill_cut_stgAt V c 4 t d4 zblk]; iexact H4
  isplitl [H5]; · iexists d5; rw [fill_cut_stgAt V c 5 t d5 zblk]; iexact H5
  iexists (k1_pay1 (stgAt V c 0 t d0) (stgAt V c 1 t d1) (stgAt V c 2 t d2) (stgAt V c 3 t d3) (stgAt V c 4 t d4) (stgAt V c 5 t d5))
  rw [out_fill V c t d0 d1 d2 d3 d4 d5]; iexact H6

theorem body_obligation1 (c : Dev nD) : BodyObligationLoose (dat1 (F := F) V c) (defs₀ (F := F)) Variants.none () Set.univ := by
  intro t
  rw [bigSep_W1, bigSep_W1]
  exact sound_body1 V c t

/-! ## The output array after the run -/

/-- What point t writes back is block t of the whole-array combination of the six arrays as the region finds them: on a row
    inside the array each filled-out input block holds its array's element at the place the output's block element sits
    (the seven windows have one block shape and one index map), and the payload is pointwise. -/
theorem flushed1_6 (c : Dev nD) (t : Fin cfg1.N) :
    (dat1 V c).flushed 6 t = ((cfg1.win 6).blk t).view.read (Elt F)
      (nodeOut (V c main_v44) (V c main_v45) (V c main_v46) (V c main_v47) (V c main_v48) (V c main_v49) : Buf (Elt F) ((c : Thread nD τ).loc main_v50)) := by
  show (cfg1.win 6).cut (cfg1.grid.coords t) ((dat1 V c).after 6 t) = _
  rw [after1_6]
  funext j
  show k1_pay1 _ _ _ _ _ _ ((cfg1.win 6).xinj (cfg1.grid.coords t) j)
    = nodeOut (V c main_v44) (V c main_v45) (V c main_v46) (V c main_v47) (V c main_v48) (V c main_v49) (((cfg1.win 6).blk t).view.emb j)
  rw [pay_apply, nodeOut_apply]
  have e0 : stgAt V c 0 t zblk ((cfg1.win 6).xinj (cfg1.grid.coords t) j) = V c main_v44 (((cfg1.win 6).blk t).view.emb j) :=
    (stgAt_xinj V c 0 t zblk j).trans rfl
  have e1 : stgAt V c 1 t zblk ((cfg1.win 6).xinj (cfg1.grid.coords t) j) = V c main_v45 (((cfg1.win 6).blk t).view.emb j) :=
    (stgAt_xinj V c 1 t zblk j).trans rfl
  have e2 : stgAt V c 2 t zblk ((cfg1.win 6).xinj (cfg1.grid.coords t) j) = V c main_v46 (((cfg1.win 6).blk t).view.emb j) :=
    (stgAt_xinj V c 2 t zblk j).trans rfl
  have e3 : stgAt V c 3 t zblk ((cfg1.win 6).xinj (cfg1.grid.coords t) j) = V c main_v47 (((cfg1.win 6).blk t).view.emb j) :=
    (stgAt_xinj V c 3 t zblk j).trans rfl
  have e4 : stgAt V c 4 t zblk ((cfg1.win 6).xinj (cfg1.grid.coords t) j) = V c main_v48 (((cfg1.win 6).blk t).view.emb j) :=
    (stgAt_xinj V c 4 t zblk j).trans rfl
  have e5 : stgAt V c 5 t zblk ((cfg1.win 6).xinj (cfg1.grid.coords t) j) = V c main_v49 (((cfg1.win 6).blk t).view.emb j) :=
    (stgAt_xinj V c 5 t zblk j).trans rfl
  rw [e0, e1, e2, e3, e4, e5]

/-- A row among point t's rows inside the array puts each of its 128 lanes in point t's block: along the lanes every block
    starts at lane 0 and spans all of them, at each of the four points. -/
theorem mem_blk1_6 (t : Fin cfg1.N) (i : S15625x128.Idx) (hlo : win1_6.index t 0 * 4000 ≤ (i 0 : Nat))
    (hhi : (i 0 : Nat) < win1_6.index t 0 * 4000 + win1_6.xsize (grid1.coords t) 0) :
    i ∈ ((cfg1.win 6).blk t).view.set := by
  show i ∈ ((View.whole main_v50).slice (win1_6.rect t)).set
  rw [View.set_slice_whole, Rect.mem_set_unit]
  have lanes : ∀ t : Fin cfg1.N, win1_6.index t 1 * win1_6.size 1 = 0 ∧ win1_6.xsize (grid1.coords t) 1 = 128 :=
    (by decide +kernel : ∀ t : Fin grid1.N, win1_6.index t 1 * win1_6.size 1 = 0 ∧ win1_6.xsize (grid1.coords t) 1 = 128)
  have hl : (i 1 : Nat) < 128 := (i 1).isLt
  intro a
  match a with
  | ⟨0, _⟩ => exact ⟨hlo, hhi⟩
  | ⟨1, _⟩ =>
    show win1_6.index t 1 * win1_6.size 1 ≤ (i 1 : Nat) ∧ (i 1 : Nat) < win1_6.index t 1 * win1_6.size 1 + win1_6.xsize (grid1.coords t) 1
    rw [(lanes t).1, (lanes t).2]; omega

/-- Where each point's block starts along the rows and how many of its rows are inside the array: 4000 each at the first
    three points, and 3625 at the last, whose block overhangs the array's 15625 rows. -/
theorem rows1_6 : (win1_6.index t1_0 0 * 4000 = 0 ∧ win1_6.xsize (grid1.coords t1_0) 0 = 4000)
    ∧ (win1_6.index t1_1 0 * 4000 = 4000 ∧ win1_6.xsize (grid1.coords t1_1) 0 = 4000)
    ∧ (win1_6.index t1_2 0 * 4000 = 8000 ∧ win1_6.xsize (grid1.coords t1_2) 0 = 4000)
    ∧ (win1_6.index t1_3 0 * 4000 = 12000 ∧ win1_6.xsize (grid1.coords t1_3) 0 = 3625) := by decide +kernel

/-- The four blocks' rows are 0‥3999, 4000‥7999, 8000‥11999 and 12000‥15624, together the array's: row r lies in the
    block of point r / 4000, and every point writes its block back. -/
theorem cover1_6 (i : S15625x128.Idx) : ∃ t : Fin cfg1.N, (cfg1.win 6).flush t = true ∧ i ∈ ((cfg1.win 6).blk t).view.set := by
  have hr : (i 0 : Nat) < 15625 := (i 0).isLt
  obtain ⟨⟨o0, n0⟩, ⟨o1, n1⟩, ⟨o2, n2⟩, ⟨o3, n3⟩⟩ := rows1_6
  rcases Nat.lt_or_ge (i 0 : Nat) 4000 with h0 | h0
  · exact ⟨t1_0, flush1_6 t1_0, mem_blk1_6 t1_0 i (by rw [o0]; omega) (by rw [o0, n0]; omega)⟩
  rcases Nat.lt_or_ge (i 0 : Nat) 8000 with h1 | h1
  · exact ⟨t1_1, flush1_6 t1_1, mem_blk1_6 t1_1 i (by rw [o1]; omega) (by rw [o1, n1]; omega)⟩
  rcases Nat.lt_or_ge (i 0 : Nat) 12000 with h2 | h2
  · exact ⟨t1_2, flush1_6 t1_2, mem_blk1_6 t1_2 i (by rw [o2]; omega) (by rw [o2, n2]; omega)⟩
  · exact ⟨t1_3, flush1_6 t1_3, mem_blk1_6 t1_3 i (by rw [o3]; omega) (by rw [o3, n3]; omega)⟩

theorem arrAt_out1 (c : Dev nD) :
    (dat1 V c).arrAt 6 cfg1.N = (nodeOut (V c main_v44) (V c main_v45) (V c main_v46) (V c main_v47) (V c main_v48) (V c main_v49) : Buf (Elt F) ((c : Thread nD τ).loc main_v50)) := by
  exact (dat1 V c).arrAt_eq_of_cover 6 _ (fun t _ => flushed1_6 V c t) (fun i => cover1_6 i)

end Cert.KernelIdeal.Node

end
-- ==== Proof.KernelIdeal.Whole.lean ====
import proofs.«113954_j16939351015518_1_alg».proof.Proof.KernelIdeal.Edge
import proofs.«113954_j16939351015518_1_alg».proof.Proof.KernelIdeal.Node
import proofs.«113954_j16939351015518_1_alg».proof.Proof.Gen.KernelIdeal.Regions
import Idealize.ShloMosaic.Lib.Pipeline.RegionsLoop
import Idealize.ShloMosaic.Lib.Pipeline.FrameSuffix

/-!
The whole program as five items: the host operations that cut out the node column, gather each edge's two
end values and lay them out as [31250, 128] arrays; the edge kernel; the host operations that scatter the three
per-edge columns onto the nodes and lay the node arrays out as [15625, 128]; the node kernel; the reshape of its
result. The buffer contents between items are a fold from the launch memory: a host stretch applies its
operations, a kernel leaves its output array at what its write-backs compose to and every other buffer as it was.
Every weakly fair execution terminates with every unscoped buffer at the fold's last value.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev W0 (c : Dev nD) : Valuation τ sig (Elt F) := fun b => m (c, b)
/-- After the first host stretch: the edge kernel's entry. -/
abbrev W1 (c : Dev nD) : Valuation τ sig (Elt F) := StableHlo.after hostOps0 (W0 m c)
/-- The same, read at the TensorCore's references. -/
abbrev E1 : (c : Dev nD) → (b : Ref sig .tc) → Buf (Elt F) ((c : Thread nD τ).loc b) := fun c b => W1 m c b
/-- After the edge kernel: its arrays at what the pipeline leaves, every other buffer as entered. -/
def W2 (c : Dev nD) : Valuation τ sig (Elt F) :=
  Pipeline.withArrays spec0 c (W1 m c) fun w => (Edge.dat0 (E1 m) c).arrAt w cfg0.N
theorem W2_arr (c : Dev nD) (w : Fin cfg0.W) :
    W2 m c (Proc.devRef .tc (Pipeline.arrRef spec0 w)) = (Edge.dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (Edge.dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the node kernel's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After the node kernel. -/
def W4 (c : Dev nD) : Valuation τ sig (Elt F) :=
  Pipeline.withArrays spec1 c (W3 m c) fun w => (Node.dat1 (E3 m) c).arrAt w cfg1.N
theorem W4_arr (c : Dev nD) (w : Fin cfg1.W) :
    W4 m c (Proc.devRef .tc (Pipeline.arrRef spec1 w)) = (Node.dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (Node.dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the last host stretch: the end. -/
abbrev W5 (c : Dev nD) : Valuation τ sig (Elt F) := StableHlo.after hostOps2 (W4 m c)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The arguments end as launched: no host operation writes one and no kernel has one as a window's array -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of_ne m c main_arg4 (by decide)).trans <| (W3_of m c main_arg4 (by decide)).trans <|
    (W2_of_ne m c main_arg4 (by decide)).trans <| (W1_of m c main_arg4 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Edge.dat0 (E1 m) c
  | ⟨1, _⟩ => fun c => Node.dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W5 m c) ∗ ∃ r, prngReg c r)

/-! ## The kernels as segments -/

set_option backward.isDefEq.respectTransparency.types false in
/-- Region 0 over the thread state: entered with every unscoped buffer at the contents before it, left with them at the
    contents after it; its arrays are split out of the unscoped buffers at entry and put back at exit; the generator
    register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Edge.body_obligation0 (E1 m) c
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers at entry and put back at exit; the generator
    register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Node.body_obligation1 (E3 m) c
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (mainSegs m) := (main_chain c).trans (by chain_rfl)

set_option backward.isDefEq.respectTransparency.types false in
/-- From any memory with zero counters every weakly fair execution of the program terminates, nothing faulting, and every
    final state holds every unscoped buffer at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun c =>
      (show (iprop(StableHlo.held (c : Thread nD τ) (Pipeline.ucRefs τ sig) (W5 m c) ∗ Rest c) : sProp 𝕄)
          ⊢ iprop(Tend m c ∗ ∃ W, owes (c : Thread nD τ) (0 : CellTallies nD τ sig Unit) W) from by
        unfold Rest Tend
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Whole

end
-- ==== Proof.KernelIdeal.Term.lean ====
import proofs.«113954_j16939351015518_1_alg».proof.Proof.KernelIdeal.Edge
import proofs.«113954_j16939351015518_1_alg».proof.Proof.KernelIdeal.Node

/-!
The program's result as ONE pure term of its five argument arrays, stage by stage: the node column u_t and its
predecessor, the edge lengths, the mask, the two index rows; each edge's end values gathered at its (negative-wrapped)
indices; the edge difference computed on the [31250, 128] layout; the three per-edge columns (difference, one, source
value) stacked and scatter-added onto the destination nodes; the three node columns cut back out; the node
combination computed on the [15625, 128] layout.
-/

noncomputable section

namespace Cert.KernelIdeal.Term

open Cert.KernelIdeal Cert.KernelIdeal.Gen Idealize.ShloMosaic

variable {F : FTy → Type} [FloatOps F]

variable (x0 x1 : (⟨S2000000x3, .f32⟩ : BufTy).Contents (Elt F)) (x2 : (⟨S4000000x2, .f32⟩ : BufTy).Contents (Elt F))
  (x3 : (⟨S2000000x1, .f32⟩ : BufTy).Contents (Elt F)) (x4 : (⟨S2x4000000, .i32⟩ : BufTy).Contents (Elt F))

/-- Column 0 of a [2000000, 3] array as a vector. -/
def col0 (x : (⟨S2000000x3, .f32⟩ : BufTy).Contents (Elt F)) : (⟨S2000000, .f32⟩ : BufTy).Contents (Elt F) :=
  shapeCast _ (extractStridedSlice S2000000x1 ![0, 0] x slices_S2000000x3_S2000000x1_0_0) shapeCasts_S2000000x1_S2000000
def col1 (x : (⟨S2000000x3, .f32⟩ : BufTy).Contents (Elt F)) : (⟨S2000000, .f32⟩ : BufTy).Contents (Elt F) :=
  shapeCast _ (extractStridedSlice S2000000x1 ![0, 1] x slices_S2000000x3_S2000000x1_0_1) shapeCasts_S2000000x1_S2000000
def col2 (x : (⟨S2000000x3, .f32⟩ : BufTy).Contents (Elt F)) : (⟨S2000000, .f32⟩ : BufTy).Contents (Elt F) :=
  shapeCast _ (extractStridedSlice S2000000x1 ![0, 2] x slices_S2000000x3_S2000000x1_0_2) shapeCasts_S2000000x1_S2000000

/-- The edge lengths: column 0 of the edge attributes. -/
def ea : (⟨S4000000, .f32⟩ : BufTy).Contents (Elt F) :=
  shapeCast _ (extractStridedSlice S4000000x1 ![0, 0] x2 slices_S4000000x2_S4000000x1_0_0) shapeCasts_S4000000x1_S4000000
/-- The mask as a vector. -/
def mask : (⟨S2000000, .f32⟩ : BufTy).Contents (Elt F) := shapeCast _ x3 shapeCasts_S2000000x1_S2000000
/-- The source and destination node of each edge. -/
def src : (⟨S4000000, .i32⟩ : BufTy).Contents (Elt F) :=
  shapeCast _ (extractStridedSlice S1x4000000 ![0, 0] x4 slices_S2x4000000_S1x4000000_0_0) shapeCasts_S1x4000000_S4000000
def dst : (⟨S4000000, .i32⟩ : BufTy).Contents (Elt F) :=
  shapeCast _ (extractStridedSlice S1x4000000 ![1, 0] x4 slices_S2x4000000_S1x4000000_1_0) shapeCasts_S1x4000000_S4000000
/-- An index vector with negative entries wrapped by the node count, as a column. -/
def wrapCol (v : (⟨S4000000, .i32⟩ : BufTy).Contents (Elt F)) : (⟨S4000000x1, .i32⟩ : BufTy).Contents (Elt F) :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 2000000#32))) v)
/-- Each edge's source and destination node value. -/
def usrc : (⟨S4000000, .f32⟩ : BufTy).Contents (Elt F) :=
  Host.gather gather_S2000000_S4000000x1_S4000000_n_0_n_n_0_1_1 (col0 x0) (wrapCol (F := F) (src (F := F) x4))
def udst : (⟨S4000000, .f32⟩ : BufTy).Contents (Elt F) :=
  Host.gather gather_S2000000_S4000000x1_S4000000_n_0_n_n_0_1_1 (col0 x0) (wrapCol (F := F) (dst (F := F) x4))
/-- The edge difference, computed on the [31250, 128] layout and laid back out as a vector. -/
def loc : (⟨S4000000, .f32⟩ : BufTy).Contents (Elt F) :=
  shapeCast _ (Edge.edgeOut (shapeCast _ (usrc x0 x4) shapeCasts_S4000000_S31250x128) (shapeCast _ (udst x0 x4) shapeCasts_S4000000_S31250x128)
    (shapeCast _ (ea x2) shapeCasts_S4000000_S31250x128) : (⟨S31250x128, .f32⟩ : BufTy).Contents (Elt F)) shapeCasts_S31250x128_S4000000
/-- A vector as a one-column array. -/
def asCol (v : (⟨S4000000, .f32⟩ : BufTy).Contents (Elt F)) : (⟨S4000000x1, .f32⟩ : BufTy).Contents (Elt F) :=
  broadcastInDim S4000000x1 ![0] bcast_S4000000_S4000000x1_0 v
/-- The three per-edge columns side by side: difference, one, source value. -/
def stacked : (⟨S4000000x3, .f32⟩ : BufTy).Contents (Elt F) :=
  concatenate S4000000x3 1 [⟨S4000000x1, asCol (loc x0 x2 x4)⟩,
    ⟨S4000000x1, asCol (broadcastInDim S4000000 ![] bcast_S_S4000000 (constant S_ .f32 0x3F800000#32))⟩,
    ⟨S4000000x1, asCol (usrc x0 x4)⟩] concatenates_S4000000x1_S4000000x1_S4000000x1_S4000000x3_d1
/-- The three columns scatter-added onto the destination nodes (the raw destination index, not wrapped). -/
def scat : (⟨S2000000x3, .f32⟩ : BufTy).Contents (Elt F) :=
  Host.scatterAdd scatter_S2000000x3_S4000000x1_S4000000x3_1_0_0_1
    (broadcastInDim S2000000x3 ![] bcast_S_S2000000x3 (constant S_ .f32 0x00000000#32))
    (broadcastInDim S4000000x1 ![0] bcast_S4000000_S4000000x1_0 (dst (F := F) x4)) (stacked x0 x2 x4)
/-- The program's result. -/
def kterm : (⟨S2000000, .f32⟩ : BufTy).Contents (Elt F) :=
  shapeCast _ (Node.nodeOut (shapeCast _ (col0 x0) shapeCasts_S2000000_S15625x128) (shapeCast _ (col0 x1) shapeCasts_S2000000_S15625x128)
    (shapeCast _ (col0 (scat x0 x2 x4)) shapeCasts_S2000000_S15625x128) (shapeCast _ (col1 (scat x0 x2 x4)) shapeCasts_S2000000_S15625x128)
    (shapeCast _ (col2 (scat x0 x2 x4)) shapeCasts_S2000000_S15625x128) (shapeCast _ (mask x3) shapeCasts_S2000000_S15625x128)
    : (⟨S15625x128, .f32⟩ : BufTy).Contents (Elt F)) shapeCasts_S15625x128_S2000000

end Cert.KernelIdeal.Term

end
-- ==== Proof.LibNary3.lean ====
/-
  A STABLEHLO OPERATION OF THREE OPERANDS GIVEN AS A LITERAL FAMILY, read at its result buffer.

  An operation built over a family of operand references writes, at its result, its function applied to the family
  of the operands' contents: contents indexed by the family's index k, the reference being the family at k. When the
  family is a literal of three references the same value is the function at the three contents listed one by one,
  each at its own reference, so that what each operand holds can be rewritten further.
-/
import Idealize.ShloMosaic.Lib.StableHlo.Run

noncomputable section

namespace Idealize.ShloMosaic.StableHlo

variable {τ : Topo} {sig : RefSig} {Val : EltTy → Type}

variable {x a b y : Ref sig .tc}

/-- An operation over the literal family of three references x, a, b: after it the result buffer holds the
    function's value at the three operands' contents, each read at its own reference (the contents listed one by
    one in place of a function of the family's index). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KernelIdeal.Thread.lean ====
import proofs.«113954_j16939351015518_1_alg».proof.Proof.KernelIdeal.Whole
import proofs.«113954_j16939351015518_1_alg».proof.Proof.KernelIdeal.Term
import proofs.«113954_j16939351015518_1_alg».proof.Proof.LibNary3
import Idealize.ShloMosaic.Lib.StableHlo.Run

/-!
The fold of buffer contents through the program, read at the result buffer and walked back to the launch memory one
boundary at a time. The last reshape reads the node kernel's output array; that array is the node combination of the
six [15625, 128] operands the second host stretch lays out; three of those are the node column, its predecessor and
the mask, untouched by the edge kernel, and three are the columns of the scatter-added array, whose updates stack the
edge kernel's output array, a column of ones and the gathered source values; the edge kernel's output array is the edge
difference of the three [31250, 128] operands the first host stretch lays out from the five launch arguments. Each
boundary is one equation at one reference; composed, they are the program's pure term.
-/

set_option maxRecDepth 16384

noncomputable section

namespace Cert.KernelIdeal.Thread

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The contents a literal line of operations leaves at one reference: each operation's result buffer holds its
    function's value at its operands' contents, every other reference holds what it held before the operation; the
    three operands of the concatenate are read one by one, each at its own reference. -/
local macro "line_results" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-! ## The first host stretch, from the launch memory

Each reference the later items read holds the stage of the pure term that the printed operations writing it compose
to, the launch memory read at the five arguments. -/

/-- The node column: column 0 of argument 0, as a vector. -/
theorem W1_v1 (c : Dev nD) :
    Whole.W1 m c (Proc.devRef .tc main_v1)
      = (Term.col0 (m ((c : Thread nD τ).loc main_arg0)) : Buf (Elt F) ((c : Thread nD τ).loc main_v1)) := by
  show StableHlo.after hostOps0 _ (Proc.devRef .tc main_v1) = _
  line_results
  rfl

/-- Its predecessor: column 0 of argument 1, as a vector. -/
theorem W1_v3 (c : Dev nD) :
    Whole.W1 m c (Proc.devRef .tc main_v3)
      = (Term.col0 (m ((c : Thread nD τ).loc main_arg1)) : Buf (Elt F) ((c : Thread nD τ).loc main_v3)) := by
  show StableHlo.after hostOps0 _ (Proc.devRef .tc main_v3) = _
  line_results
  rfl

/-- The mask, argument 3, as a vector. -/
theorem W1_v6 (c : Dev nD) :
    Whole.W1 m c (Proc.devRef .tc main_v6)
      = (Term.mask (m ((c : Thread nD τ).loc main_arg3)) : Buf (Elt F) ((c : Thread nD τ).loc main_v6)) := by
  show StableHlo.after hostOps0 _ (Proc.devRef .tc main_v6) = _
  line_results
  rfl

/-- The destination node of each edge: row 1 of argument 4 (the raw index, not wrapped). -/
theorem W1_v10 (c : Dev nD) :
    Whole.W1 m c (Proc.devRef .tc main_v10)
      = (Term.dst (m ((c : Thread nD τ).loc main_arg4)) : Buf (Elt F) ((c : Thread nD τ).loc main_v10)) := by
  show StableHlo.after hostOps0 _ (Proc.devRef .tc main_v10) = _
  line_results
  rfl

/-- Each edge's source node value: the node column gathered at the wrapped source index. -/
theorem W1_v17 (c : Dev nD) :
    Whole.W1 m c (Proc.devRef .tc main_v17)
      = (Term.usrc (m ((c : Thread nD τ).loc main_arg0)) (m ((c : Thread nD τ).loc main_arg4)) : Buf (Elt F) ((c : Thread nD τ).loc main_v17)) := by
  show StableHlo.after hostOps0 _ (Proc.devRef .tc main_v17) = _
  line_results
  rfl

/-- The edge kernel's first operand: the source values on the [31250, 128] layout. -/
theorem W1_v25 (c : Dev nD) :
    Whole.W1 m c (Proc.devRef .tc main_v25)
      = (shapeCast _ (Term.usrc (m ((c : Thread nD τ).loc main_arg0)) (m ((c : Thread nD τ).loc main_arg4))) shapeCasts_S4000000_S31250x128 : Buf (Elt F) ((c : Thread nD τ).loc main_v25)) := by
  show StableHlo.after hostOps0 _ (Proc.devRef .tc main_v25) = _
  after_results_simp
  rfl

/-- The edge kernel's second operand: the destination values on the [31250, 128] layout. -/
theorem W1_v26 (c : Dev nD) :
    Whole.W1 m c (Proc.devRef .tc main_v26)
      = (shapeCast _ (Term.udst (m ((c : Thread nD τ).loc main_arg0)) (m ((c : Thread nD τ).loc main_arg4))) shapeCasts_S4000000_S31250x128 : Buf (Elt F) ((c : Thread nD τ).loc main_v26)) := by
  show StableHlo.after hostOps0 _ (Proc.devRef .tc main_v26) = _
  after_results_simp
  rfl

/-- The edge kernel's third operand: the edge lengths on the [31250, 128] layout. -/
theorem W1_v27 (c : Dev nD) :
    Whole.W1 m c (Proc.devRef .tc main_v27)
      = (shapeCast _ (Term.ea (m ((c : Thread nD τ).loc main_arg2))) shapeCasts_S4000000_S31250x128 : Buf (Elt F) ((c : Thread nD τ).loc main_v27)) := by
  show StableHlo.after hostOps0 _ (Proc.devRef .tc main_v27) = _
  line_results
  rfl

/-! ## Across the edge kernel

The kernel's windows are over its three operands and its output array; every other buffer is as the first host stretch
left it, and the output array holds the edge difference of the three operands. -/

theorem W2_v1 (c : Dev nD) :
    Whole.W2 m c (Proc.devRef .tc main_v1)
      = (Term.col0 (m ((c : Thread nD τ).loc main_arg0)) : Buf (Elt F) ((c : Thread nD τ).loc main_v1)) :=
  (Whole.W2_of_ne m c main_v1 (by decide)).trans (W1_v1 m c)

theorem W2_v3 (c : Dev nD) :
    Whole.W2 m c (Proc.devRef .tc main_v3)
      = (Term.col0 (m ((c : Thread nD τ).loc main_arg1)) : Buf (Elt F) ((c : Thread nD τ).loc main_v3)) :=
  (Whole.W2_of_ne m c main_v3 (by decide)).trans (W1_v3 m c)

theorem W2_v6 (c : Dev nD) :
    Whole.W2 m c (Proc.devRef .tc main_v6)
      = (Term.mask (m ((c : Thread nD τ).loc main_arg3)) : Buf (Elt F) ((c : Thread nD τ).loc main_v6)) :=
  (Whole.W2_of_ne m c main_v6 (by decide)).trans (W1_v6 m c)

theorem W2_v10 (c : Dev nD) :
    Whole.W2 m c (Proc.devRef .tc main_v10)
      = (Term.dst (m ((c : Thread nD τ).loc main_arg4)) : Buf (Elt F) ((c : Thread nD τ).loc main_v10)) :=
  (Whole.W2_of_ne m c main_v10 (by decide)).trans (W1_v10 m c)

theorem W2_v17 (c : Dev nD) :
    Whole.W2 m c (Proc.devRef .tc main_v17)
      = (Term.usrc (m ((c : Thread nD τ).loc main_arg0)) (m ((c : Thread nD τ).loc main_arg4)) : Buf (Elt F) ((c : Thread nD τ).loc main_v17)) :=
  (Whole.W2_of_ne m c main_v17 (by decide)).trans (W1_v17 m c)

/-- The edge kernel's output array: the edge difference of the source values, the destination values and the edge
    lengths, each on the [31250, 128] layout. -/
theorem W2_v28 (c : Dev nD) :
    Whole.W2 m c (Proc.devRef .tc main_v28)
      = (Edge.edgeOut (shapeCast _ (Term.usrc (m ((c : Thread nD τ).loc main_arg0)) (m ((c : Thread nD τ).loc main_arg4))) shapeCasts_S4000000_S31250x128)
          (shapeCast _ (Term.udst (m ((c : Thread nD τ).loc main_arg0)) (m ((c : Thread nD τ).loc main_arg4))) shapeCasts_S4000000_S31250x128)
          (shapeCast _ (Term.ea (m ((c : Thread nD τ).loc main_arg2))) shapeCasts_S4000000_S31250x128) : Buf (Elt F) ((c : Thread nD τ).loc main_v28)) := by
  refine (Whole.W2_arr m c 3).trans ((Edge.arrAt_out0 (Whole.E1 m) c).trans ?_)
  rw [show Whole.E1 m c main_v25 = _ from W1_v25 m c, show Whole.E1 m c main_v26 = _ from W1_v26 m c,
    show Whole.E1 m c main_v27 = _ from W1_v27 m c]
  rfl

/-! ## The second host stretch, from the contents the edge kernel leaves -/

/-- The stretch cut after the scatter-add: the eleven operations up to it, then the twelve that cut the node columns
    out and lay the node arrays out. -/
theorem hostOps1_cut : (hostOps1 : List (HloOp τ sig (Elt F))) = hostOps1.take 11 ++ hostOps1.drop 11 :=
  (List.take_append_drop 11 _).symm

/-- The scatter-added array: zeros, plus at each edge's destination node the row (edge difference, one, source value);
    the edge difference is the edge kernel's output array laid back out as a vector. -/
theorem W3_v37 (c : Dev nD) :
    Whole.W3 m c (Proc.devRef .tc main_v37)
      = (Term.scat (m ((c : Thread nD τ).loc main_arg0)) (m ((c : Thread nD τ).loc main_arg2)) (m ((c : Thread nD τ).loc main_arg4)) : Buf (Elt F) ((c : Thread nD τ).loc main_v37)) := by
  show StableHlo.after hostOps1 _ (Proc.devRef .tc main_v37) = _
  line_results
  rw [W2_v10 m c, W2_v17 m c, W2_v28 m c]
  rfl

/-- The node kernel's first operand: the node column on the [15625, 128] layout. -/
theorem W3_v44 (c : Dev nD) :
    Whole.W3 m c (Proc.devRef .tc main_v44)
      = (shapeCast _ (Term.col0 (m ((c : Thread nD τ).loc main_arg0))) shapeCasts_S2000000_S15625x128 : Buf (Elt F) ((c : Thread nD τ).loc main_v44)) := by
  show StableHlo.after hostOps1 _ (Proc.devRef .tc main_v44) = _
  line_results
  rw [W2_v1 m c]

/-- Its second operand: the predecessor column on the [15625, 128] layout. -/
theorem W3_v45 (c : Dev nD) :
    Whole.W3 m c (Proc.devRef .tc main_v45)
      = (shapeCast _ (Term.col0 (m ((c : Thread nD τ).loc main_arg1))) shapeCasts_S2000000_S15625x128 : Buf (Elt F) ((c : Thread nD τ).loc main_v45)) := by
  show StableHlo.after hostOps1 _ (Proc.devRef .tc main_v45) = _
  line_results
  rw [W2_v3 m c]

/-- Its sixth operand: the mask on the [15625, 128] layout. -/
theorem W3_v49 (c : Dev nD) :
    Whole.W3 m c (Proc.devRef .tc main_v49)
      = (shapeCast _ (Term.mask (m ((c : Thread nD τ).loc main_arg3))) shapeCasts_S2000000_S15625x128 : Buf (Elt F) ((c : Thread nD τ).loc main_v49)) := by
  show StableHlo.after hostOps1 _ (Proc.devRef .tc main_v49) = _
  line_results
  rw [W2_v6 m c]

/-- Its third operand: column 0 of the scatter-added array (the summed edge differences) on the [15625, 128] layout. The
    operations after the scatter-add read the scatter-added array only. -/
theorem W3_v46 (c : Dev nD) :
    Whole.W3 m c (Proc.devRef .tc main_v46)
      = (shapeCast _ (Term.col0 (Term.scat (m ((c : Thread nD τ).loc main_arg0)) (m ((c : Thread nD τ).loc main_arg2)) (m ((c : Thread nD τ).loc main_arg4)))) shapeCasts_S2000000_S15625x128 : Buf (Elt F) ((c : Thread nD τ).loc main_v46)) := by
  rw [← W3_v37 m c]
  show StableHlo.after hostOps1 _ (Proc.devRef .tc main_v46)
    = (shapeCast _ (Term.col0 (StableHlo.after hostOps1 (Whole.W2 m c) (Proc.devRef .tc main_v37))) shapeCasts_S2000000_S15625x128 : Buf (Elt F) ((c : Thread nD τ).loc main_v46))
  rw [hostOps1_cut, StableHlo.after_append]
  generalize StableHlo.after (List.take 11 hostOps1) (Whole.W2 m c) = Y
  simp only [hostOps1, List.drop_succ_cons, List.drop_zero]
  line_results
  rfl

/-- Its fourth operand: column 1 of the scatter-added array (the count of arriving edges) on the [15625, 128] layout. -/
theorem W3_v47 (c : Dev nD) :
    Whole.W3 m c (Proc.devRef .tc main_v47)
      = (shapeCast _ (Term.col1 (Term.scat (m ((c : Thread nD τ).loc main_arg0)) (m ((c : Thread nD τ).loc main_arg2)) (m ((c : Thread nD τ).loc main_arg4)))) shapeCasts_S2000000_S15625x128 : Buf (Elt F) ((c : Thread nD τ).loc main_v47)) := by
  rw [← W3_v37 m c]
  show StableHlo.after hostOps1 _ (Proc.devRef .tc main_v47)
    = (shapeCast _ (Term.col1 (StableHlo.after hostOps1 (Whole.W2 m c) (Proc.devRef .tc main_v37))) shapeCasts_S2000000_S15625x128 : Buf (Elt F) ((c : Thread nD τ).loc main_v47))
  rw [hostOps1_cut, StableHlo.after_append]
  generalize StableHlo.after (List.take 11 hostOps1) (Whole.W2 m c) = Y
  simp only [hostOps1, List.drop_succ_cons, List.drop_zero]
  line_results
  rfl

/-- Its fifth operand: column 2 of the scatter-added array (the summed source values) on the [15625, 128] layout. -/
theorem W3_v48 (c : Dev nD) :
    Whole.W3 m c (Proc.devRef .tc main_v48)
      = (shapeCast _ (Term.col2 (Term.scat (m ((c : Thread nD τ).loc main_arg0)) (m ((c : Thread nD τ).loc main_arg2)) (m ((c : Thread nD τ).loc main_arg4)))) shapeCasts_S2000000_S15625x128 : Buf (Elt F) ((c : Thread nD τ).loc main_v48)) := by
  rw [← W3_v37 m c]
  show StableHlo.after hostOps1 _ (Proc.devRef .tc main_v48)
    = (shapeCast _ (Term.col2 (StableHlo.after hostOps1 (Whole.W2 m c) (Proc.devRef .tc main_v37))) shapeCasts_S2000000_S15625x128 : Buf (Elt F) ((c : Thread nD τ).loc main_v48))
  rw [hostOps1_cut, StableHlo.after_append]
  generalize StableHlo.after (List.take 11 hostOps1) (Whole.W2 m c) = Y
  simp only [hostOps1, List.drop_succ_cons, List.drop_zero]
  line_results
  rfl

/-! ## Across the node kernel and the last reshape -/

/-- The node kernel's output array: the node combination of its six operands. -/
theorem W4_v50 (c : Dev nD) :
    Whole.W4 m c (Proc.devRef .tc main_v50)
      = (Node.nodeOut (shapeCast _ (Term.col0 (m ((c : Thread nD τ).loc main_arg0))) shapeCasts_S2000000_S15625x128)
          (shapeCast _ (Term.col0 (m ((c : Thread nD τ).loc main_arg1))) shapeCasts_S2000000_S15625x128)
          (shapeCast _ (Term.col0 (Term.scat (m ((c : Thread nD τ).loc main_arg0)) (m ((c : Thread nD τ).loc main_arg2)) (m ((c : Thread nD τ).loc main_arg4)))) shapeCasts_S2000000_S15625x128)
          (shapeCast _ (Term.col1 (Term.scat (m ((c : Thread nD τ).loc main_arg0)) (m ((c : Thread nD τ).loc main_arg2)) (m ((c : Thread nD τ).loc main_arg4)))) shapeCasts_S2000000_S15625x128)
          (shapeCast _ (Term.col2 (Term.scat (m ((c : Thread nD τ).loc main_arg0)) (m ((c : Thread nD τ).loc main_arg2)) (m ((c : Thread nD τ).loc main_arg4)))) shapeCasts_S2000000_S15625x128)
          (shapeCast _ (Term.mask (m ((c : Thread nD τ).loc main_arg3))) shapeCasts_S2000000_S15625x128) : Buf (Elt F) ((c : Thread nD τ).loc main_v50)) := by
  refine (Whole.W4_arr m c 6).trans ((Node.arrAt_out1 (Whole.E3 m) c).trans ?_)
  rw [show Whole.E3 m c main_v44 = _ from W3_v44 m c, show Whole.E3 m c main_v45 = _ from W3_v45 m c,
    show Whole.E3 m c main_v46 = _ from W3_v46 m c, show Whole.E3 m c main_v47 = _ from W3_v47 m c,
    show Whole.E3 m c main_v48 = _ from W3_v48 m c, show Whole.E3 m c main_v49 = _ from W3_v49 m c]
  rfl

/-- The result buffer: the node kernel's output array laid back out as a vector. -/
theorem W5_v51 (c : Dev nD) :
    Whole.W5 m c (Proc.devRef .tc main_v51)
      = (shapeCast _ (Whole.W4 m c (Proc.devRef .tc main_v50) : Buf (Elt F) ((c : Thread nD τ).loc main_v50)) shapeCasts_S15625x128_S2000000
          : Buf (Elt F) ((c : Thread nD τ).loc main_v51)) := by
  show StableHlo.after hostOps2 _ (Proc.devRef .tc main_v51) = _
  line_results

/-- The result buffer at the end of the fold is the program's pure term of the five launch arguments. -/
theorem W5_result (c : Dev nD) :
    Whole.W5 m c (Proc.devRef .tc main_v51)
      = (Term.kterm (m ((c : Thread nD τ).loc main_arg0)) (m ((c : Thread nD τ).loc main_arg1)) (m ((c : Thread nD τ).loc main_arg2))
          (m ((c : Thread nD τ).loc main_arg3)) (m ((c : Thread nD τ).loc main_arg4)) : Buf (Elt F) ((c : Thread nD τ).loc main_v51)) := by
  rw [W5_v51 m c, W4_v50 m c]
  rfl

end Cert.KernelIdeal.Thread

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.Bridge.lean ====
import proofs.«113954_j16939351015518_1_alg».proof.Proof.KernelIdeal.Term
import proofs.«113954_j16939351015518_1_alg».proof.Proof.RefRead
import proofs.«113954_j16939351015518_1_alg».proof.Proof.LibScatterSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx

/-!
The program's result and the reference's last stage, at the ideal instance, are one function of the five arguments.

Both compute the node column u_t and its predecessor, the edge lengths, the mask and the two index rows by the same
slices and reshapes, and gather each edge's end values at the same wrapped indices: those stages are the same terms.
Three things differ, and each is an identity on the values. (1) The program computes the edge difference on the
[31250, 128] layout and the node combination on the [15625, 128] layout: a pointwise expression of re-laid-out
operands, laid back out, is the pointwise expression of the operands. (2) The program stacks three per-edge columns
(difference, one, source value) and scatter-adds the [4000000, 3] stack once at the destination indices, then cuts the
three node columns back out; the reference scatter-adds the three vectors separately at the same indices: at node p,
column k of the one scatter and the k-th separate scatter are both zero plus the sum, over the edges whose destination
index is p, of the k-th per-edge value. (3) The reference's quotients are the host's and the program's the vector
unit's: one division on the extended reals.
-/

open Cert.KernelIdeal Cert.ReferenceIdeal

/-! ## Re-indexing there and back -/

/-- An array laid out under another shape, read at the position an index of the first shape is carried to, is the
    array at that index. -/
private theorem cast_back {s t : Shape} {α : Type} (a : s.Idx → α) (h : s.ShapeCasts t) (h' : t.ShapeCasts s) (i : s.Idx) :
    shapeCast t a h (Shape.reshapeEquiv h' i) = a i :=
  congrFun (shapeCast_shapeCast a h h') i

section Stages
variable (x0 x1 : (⟨Cert.KernelIdeal.S2000000x3, .f32⟩ : BufTy).Contents (Elt Ideal))
    (x2 : (⟨Cert.KernelIdeal.S4000000x2, .f32⟩ : BufTy).Contents (Elt Ideal))
    (x3 : (⟨Cert.KernelIdeal.S2000000x1, .f32⟩ : BufTy).Contents (Elt Ideal))
    (x4 : (⟨Cert.KernelIdeal.S2x4000000, .i32⟩ : BufTy).Contents (Elt Ideal))

/-! ## The stages the two programs spell alike -/

private theorem col0_eq_v1 : Term.col0 (F := Ideal) x0 = Read.val_main_v1 (F := Ideal) x0 := rfl
private theorem col0_eq_v3 : Term.col0 (F := Ideal) x1 = Read.val_main_v3 (F := Ideal) x1 := rfl
private theorem ea_eq_v5 : Term.ea (F := Ideal) x2 = Read.val_main_v5 (F := Ideal) x2 := rfl
private theorem mask_eq_v62 : Term.mask (F := Ideal) x3 = Read.val_main_v62 (F := Ideal) x3 := rfl
private theorem dst_eq_v9 : Term.dst (F := Ideal) x4 = Read.val_main_v9 (F := Ideal) x4 := rfl
private theorem udst_eq_v19 : Term.udst (F := Ideal) x0 x4 = Read.val_main_v19 (F := Ideal) x0 x4 := rfl
private theorem usrc_eq_v26 : Term.usrc (F := Ideal) x0 x4 = Read.val_main_v26 (F := Ideal) x0 x4 := rfl
private theorem usrc_eq_v48 : Term.usrc (F := Ideal) x0 x4 = Read.val_main_v48 (F := Ideal) x0 x4 := rfl

/-! ## The edge difference -/

/-- The edge difference computed on the [31250, 128] layout and laid back out is the reference's quotient of the
    difference of the gathered end values by the edge length, edge by edge. -/
private theorem loc_eq_v28 : Term.loc (F := Ideal) x0 x2 x4 = Read.val_main_v28 (F := Ideal) x0 x2 x4 := by
  funext i
  show Ideal.div
      (shapeCast _ (Term.udst (F := Ideal) x0 x4) Cert.KernelIdeal.Gen.shapeCasts_S4000000_S31250x128
          (Shape.reshapeEquiv Cert.KernelIdeal.Gen.shapeCasts_S31250x128_S4000000 i)
        - shapeCast _ (Term.usrc (F := Ideal) x0 x4) Cert.KernelIdeal.Gen.shapeCasts_S4000000_S31250x128
          (Shape.reshapeEquiv Cert.KernelIdeal.Gen.shapeCasts_S31250x128_S4000000 i))
      (shapeCast _ (Term.ea (F := Ideal) x2) Cert.KernelIdeal.Gen.shapeCasts_S4000000_S31250x128
          (Shape.reshapeEquiv Cert.KernelIdeal.Gen.shapeCasts_S31250x128_S4000000 i))
    = Ideal.div (Read.val_main_v19 (F := Ideal) x0 x4 i - Read.val_main_v26 (F := Ideal) x0 x4 i)
        (Read.val_main_v5 (F := Ideal) x2 i)
  rw [cast_back, cast_back, cast_back]
  rfl

end Stages

/-! ## Columns read at an index -/

section Layout
variable {α : Type}

/-- Column k of a [P, C] array, cut out as [P, 1] and laid out as a vector, read at p: the array at (p, k). -/
private theorem col_apply {P C : Nat} (k : Fin C) (x : (⟨2, ![P, C]⟩ : Shape).Idx → α)
    (hs : (⟨2, ![P, C]⟩ : Shape).Slices ![0, k.val] (⟨2, ![P, 1]⟩ : Shape))
    (hc : (⟨2, ![P, 1]⟩ : Shape).ShapeCasts (⟨1, ![P]⟩ : Shape)) (p : Fin P) :
    shapeCast (⟨1, ![P]⟩ : Shape) (extractStridedSlice (⟨2, ![P, 1]⟩ : Shape) ![0, k.val] x hs) hc (ix1 p) = x (ix2 p k) := by
  refine (shapeCast_apply _ hc (ix1 p) (ix2 p (0 : Fin 1)) ?_).trans ?_
  · rw [Shape.rowMajor_val_two, Shape.rowMajor_val_one]
    show p.val * 1 + 0 = p.val
    omega
  · exact extractStridedSlice_apply _ x hs _ (ix2 p k) (fun a => match a with
      | ⟨0, _⟩ => by show p.val = 0 + p.val; omega
      | ⟨1, _⟩ => by show k.val = k.val + 0; omega)

/-- A vector [N] broadcast along axis 0 to a column [N, 1], read at (n, 0): the vector at n. -/
private theorem asCol_apply {N : Nat} (hN : N ≠ 1) (v : (⟨1, ![N]⟩ : Shape).Idx → α)
    (h : (⟨1, ![N]⟩ : Shape).BroadcastsInDim (⟨2, ![N, 1]⟩ : Shape) ![0]) (n : Fin N) :
    broadcastInDim (⟨2, ![N, 1]⟩ : Shape) ![0] h v (ix2 n (0 : Fin 1)) = v (ix1 n) :=
  broadcastInDim_apply _ h v _ (ix1 n) (fun a => match a with
    | ⟨0, _⟩ => by show n.val = if N = 1 then 0 else n.val; rw [if_neg hN])

/-- Three columns [N, 1] side by side as [N, 3], read at (n, 0), (n, 1), (n, 2): the first, second, third column
    at (n, 0). -/
private theorem concat3_apply0 {N : Nat} (a b c : (⟨2, ![N, 1]⟩ : Shape).Idx → α)
    (h : Shape.Concatenates [(⟨2, ![N, 1]⟩ : Shape), ⟨2, ![N, 1]⟩, ⟨2, ![N, 1]⟩] (⟨2, ![N, 3]⟩ : Shape) 1) (n : Fin N) :
    concatenate (⟨2, ![N, 3]⟩ : Shape) 1 [⟨(⟨2, ![N, 1]⟩ : Shape), a⟩, ⟨(⟨2, ![N, 1]⟩ : Shape), b⟩, ⟨(⟨2, ![N, 1]⟩ : Shape), c⟩] h
      (ix2 n (0 : Fin 3)) = a (ix2 n (0 : Fin 1)) :=
  concatenate_apply_piece (t := (⟨2, ![N, 3]⟩ : Shape)) 1
    [⟨(⟨2, ![N, 1]⟩ : Shape), a⟩, ⟨(⟨2, ![N, 1]⟩ : Shape), b⟩, ⟨(⟨2, ![N, 1]⟩ : Shape), c⟩] h (ix2 n (0 : Fin 3)) 0 (by show (0 : Nat) < 3; omega)
    (⟨2, ![N, 1]⟩ : Shape) a rfl rfl 0 rfl (ix2 n (0 : Fin 1))
    (fun b hb => match b with
      | ⟨0, _⟩ => rfl
      | ⟨1, _⟩ => absurd rfl hb)
    rfl

private theorem concat3_apply1 {N : Nat} (a b c : (⟨2, ![N, 1]⟩ : Shape).Idx → α)
    (h : Shape.Concatenates [(⟨2, ![N, 1]⟩ : Shape), ⟨2, ![N, 1]⟩, ⟨2, ![N, 1]⟩] (⟨2, ![N, 3]⟩ : Shape) 1) (n : Fin N) :
    concatenate (⟨2, ![N, 3]⟩ : Shape) 1 [⟨(⟨2, ![N, 1]⟩ : Shape), a⟩, ⟨(⟨2, ![N, 1]⟩ : Shape), b⟩, ⟨(⟨2, ![N, 1]⟩ : Shape), c⟩] h
      (ix2 n (1 : Fin 3)) = b (ix2 n (0 : Fin 1)) :=
  concatenate_apply_piece (t := (⟨2, ![N, 3]⟩ : Shape)) 1
    [⟨(⟨2, ![N, 1]⟩ : Shape), a⟩, ⟨(⟨2, ![N, 1]⟩ : Shape), b⟩, ⟨(⟨2, ![N, 1]⟩ : Shape), c⟩] h (ix2 n (1 : Fin 3)) 1 (by show (1 : Nat) < 3; omega)
    (⟨2, ![N, 1]⟩ : Shape) b rfl rfl 1 rfl (ix2 n (0 : Fin 1))
    (fun b hb => match b with
      | ⟨0, _⟩ => rfl
      | ⟨1, _⟩ => absurd rfl hb)
    rfl

private theorem concat3_apply2 {N : Nat} (a b c : (⟨2, ![N, 1]⟩ : Shape).Idx → α)
    (h : Shape.Concatenates [(⟨2, ![N, 1]⟩ : Shape), ⟨2, ![N, 1]⟩, ⟨2, ![N, 1]⟩] (⟨2, ![N, 3]⟩ : Shape) 1) (n : Fin N) :
    concatenate (⟨2, ![N, 3]⟩ : Shape) 1 [⟨(⟨2, ![N, 1]⟩ : Shape), a⟩, ⟨(⟨2, ![N, 1]⟩ : Shape), b⟩, ⟨(⟨2, ![N, 1]⟩ : Shape), c⟩] h
      (ix2 n (2 : Fin 3)) = c (ix2 n (0 : Fin 1)) :=
  concatenate_apply_piece (t := (⟨2, ![N, 3]⟩ : Shape)) 1
    [⟨(⟨2, ![N, 1]⟩ : Shape), a⟩, ⟨(⟨2, ![N, 1]⟩ : Shape), b⟩, ⟨(⟨2, ![N, 1]⟩ : Shape), c⟩] h (ix2 n (2 : Fin 3)) 2 (by show (2 : Nat) < 3; omega)
    (⟨2, ![N, 1]⟩ : Shape) c rfl rfl 2 rfl (ix2 n (0 : Fin 1))
    (fun b hb => match b with
      | ⟨0, _⟩ => rfl
      | ⟨1, _⟩ => absurd rfl hb)
    rfl

end Layout

/-! ## The scattered columns -/

section RowsFlat
variable {P C N w : Nat}

/-- One scatter-add of a [N, C] stack of columns onto [P, C], read at (p, ch), is the scatter-add of a vector [N] onto
    [P] at the same index column, read at p, when the operands agree there and column ch of the stack is the vector:
    both are the operand plus the sum over the rows whose index is p. -/
private theorem rows_eq_flat (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1)
    (d' : ScatterDims (⟨1, ![P]⟩ : Shape) (⟨2, ![N, 1]⟩ : Shape) (⟨1, ![N]⟩ : Shape))
    (huw' : d'.updateWindowDims = []) (hiw' : d'.insertedWindowDims = [0]) (hsd' : d'.scatterDimsToOperandDims = [0])
    (hiv' : d'.indexVectorDim = 1)
    (x : (⟨2, ![P, C]⟩ : Shape).Idx → EReal) (x' : (⟨1, ![P]⟩ : Shape).Idx → EReal)
    (idx : IVec (⟨2, ![N, 1]⟩ : Shape) w)
    (upd : (⟨2, ![N, C]⟩ : Shape).Idx → EReal) (upd' : (⟨1, ![N]⟩ : Shape).Idx → EReal) (p : Fin P) (ch : Fin C)
    (hx : x (ix2 p ch) = x' (ix1 p)) (hu : ∀ n : Fin N, upd (ix2 n ch) = upd' (ix1 n)) :
    Ideal.hostScatterAdd d x idx upd (ix2 p ch) = Ideal.hostScatterAdd d' x' idx upd' (ix1 p) := by
  rw [ScatterSum.scatterAdd_rows_apply d huw hiw hsd hiv, ScatterSum.scatterAdd_flat_apply d' huw' hiw' hsd' hiv', hx]
  exact congrArg _ (Finset.sum_congr rfl (fun n _ => hu n))

end RowsFlat

section Scatter
variable (x0 x1 : (⟨Cert.KernelIdeal.S2000000x3, .f32⟩ : BufTy).Contents (Elt Ideal))
    (x2 : (⟨Cert.KernelIdeal.S4000000x2, .f32⟩ : BufTy).Contents (Elt Ideal))
    (x3 : (⟨Cert.KernelIdeal.S2000000x1, .f32⟩ : BufTy).Contents (Elt Ideal))
    (x4 : (⟨Cert.KernelIdeal.S2x4000000, .i32⟩ : BufTy).Contents (Elt Ideal))

/-- Column 0 of the stack at edge n is the reference's edge difference at n. -/
private theorem stacked_col0 (n : Fin 4000000) :
    Term.stacked (F := Ideal) x0 x2 x4 (ix2 n (0 : Fin 3)) = Read.val_main_v28 (F := Ideal) x0 x2 x4 (ix1 n) :=
  (concat3_apply0 _ _ _ _ n).trans ((asCol_apply (by decide) _ _ n).trans (congrFun (loc_eq_v28 x0 x2 x4) (ix1 n)))

/-- Column 1 of the stack at edge n is the reference's constant one. -/
private theorem stacked_col1 (n : Fin 4000000) :
    Term.stacked (F := Ideal) x0 x2 x4 (ix2 n (1 : Fin 3)) = Read.val_main_v32 (F := Ideal) (ix1 n) :=
  (concat3_apply1 _ _ _ _ n).trans ((asCol_apply (by decide) _ _ n).trans rfl)

/-- Column 2 of the stack at edge n is the reference's gathered source value at n. -/
private theorem stacked_col2 (n : Fin 4000000) :
    Term.stacked (F := Ideal) x0 x2 x4 (ix2 n (2 : Fin 3)) = Read.val_main_v48 (F := Ideal) x0 x4 (ix1 n) :=
  (concat3_apply2 _ _ _ _ n).trans ((asCol_apply (by decide) _ _ n).trans (congrFun (usrc_eq_v48 x0 x4) (ix1 n)))

/-- The program's scatter is the ideal scatter-add of the stack onto zeros at the destination column. -/
private theorem scat_eq : Term.scat (F := Ideal) x0 x2 x4
    = Ideal.hostScatterAdd Cert.KernelIdeal.scatter_S2000000x3_S4000000x1_S4000000x3_1_0_0_1
        (broadcastInDim Cert.KernelIdeal.S2000000x3 ![] Cert.KernelIdeal.Gen.bcast_S_S2000000x3
          (constant (F := Ideal) Cert.KernelIdeal.S_ .f32 0x00000000#32))
        (Read.val_main_v30 (F := Ideal) x4) (Term.stacked (F := Ideal) x0 x2 x4) := rfl

private theorem v31_eq : Read.val_main_v31 (F := Ideal) x0 x2 x4
    = Ideal.hostScatterAdd Cert.ReferenceIdeal.scatter_S2000000_S4000000x1_S4000000_n_0_0_1
        (Read.val_main_v29 (F := Ideal)) (Read.val_main_v30 (F := Ideal) x4) (Read.val_main_v28 (F := Ideal) x0 x2 x4) := rfl

private theorem v35_eq : Read.val_main_v35 (F := Ideal) x4
    = Ideal.hostScatterAdd Cert.ReferenceIdeal.scatter_S2000000_S4000000x1_S4000000_n_0_0_1
        (Read.val_main_v33 (F := Ideal)) (Read.val_main_v30 (F := Ideal) x4) (Read.val_main_v32 (F := Ideal)) := rfl

private theorem v51_eq : Read.val_main_v51 (F := Ideal) x0 x4
    = Ideal.hostScatterAdd Cert.ReferenceIdeal.scatter_S2000000_S4000000x1_S4000000_n_0_0_1
        (Read.val_main_v49 (F := Ideal)) (Read.val_main_v30 (F := Ideal) x4) (Read.val_main_v48 (F := Ideal) x0 x4) := rfl

/-- Column 0 of the one scatter-add of the stack is the reference's scatter-add of the edge differences. -/
private theorem scat_col0 : Term.col0 (F := Ideal) (Term.scat (F := Ideal) x0 x2 x4) = Read.val_main_v31 (F := Ideal) x0 x2 x4 := by
  funext i
  obtain ⟨p, rfl⟩ : ∃ p, i = ix1 p := ⟨i 0, eq_ix1 i⟩
  refine (col_apply (0 : Fin 3) _ _ _ p).trans ?_
  rw [scat_eq, v31_eq]
  exact rows_eq_flat _ rfl rfl rfl rfl _ rfl rfl rfl rfl _ _ _ _ _ p 0 rfl (stacked_col0 x0 x2 x4)

/-- Column 1 of the one scatter-add of the stack is the reference's scatter-add of ones: the number of edges arriving. -/
private theorem scat_col1 : Term.col1 (F := Ideal) (Term.scat (F := Ideal) x0 x2 x4) = Read.val_main_v35 (F := Ideal) x4 := by
  funext i
  obtain ⟨p, rfl⟩ : ∃ p, i = ix1 p := ⟨i 0, eq_ix1 i⟩
  refine (col_apply (1 : Fin 3) _ _ _ p).trans ?_
  rw [scat_eq, v35_eq]
  exact rows_eq_flat _ rfl rfl rfl rfl _ rfl rfl rfl rfl _ _ _ _ _ p 1 rfl (stacked_col1 x0 x2 x4)

/-- Column 2 of the one scatter-add of the stack is the reference's scatter-add of the gathered source values. -/
private theorem scat_col2 : Term.col2 (F := Ideal) (Term.scat (F := Ideal) x0 x2 x4) = Read.val_main_v51 (F := Ideal) x0 x4 := by
  funext i
  obtain ⟨p, rfl⟩ : ∃ p, i = ix1 p := ⟨i 0, eq_ix1 i⟩
  refine (col_apply (2 : Fin 3) _ _ _ p).trans ?_
  rw [scat_eq, v51_eq]
  exact rows_eq_flat _ rfl rfl rfl rfl _ rfl rfl rfl rfl _ _ _ _ _ p 2 rfl (stacked_col2 x0 x2 x4)

end Scatter

/-! ## The node combination -/

/-- The node combination on one node's six numbers: the temporal difference over the step, plus the mean edge
    difference (zero where no edge arrives) times the node value, minus the viscosity times the second difference,
    all times the mask. -/
private def nodePt (ut ut1 sums cnt se mask : Ideal .f32) : Ideal .f32 :=
  FloatOps.mulf
    (FloatOps.subf
      (FloatOps.addf (FloatOps.divf (FloatOps.subf ut ut1) (FloatOps.ofBits .f32 0x3C23D70A#32))
        (FloatOps.mulf
          (Scalar.select (FloatOps.cmpf (F := Ideal) .ogt cnt (FloatOps.ofBits .f32 0x00000000#32))
            (FloatOps.divf sums (FloatOps.maximumf cnt (FloatOps.ofBits .f32 0x3F800000#32)))
            (FloatOps.ofBits .f32 0x00000000#32))
          ut))
      (FloatOps.mulf (FloatOps.ofBits .f32 0x3C23D70A#32)
        (FloatOps.divf (FloatOps.subf se (FloatOps.mulf (FloatOps.ofBits .f32 0x40000000#32) ut))
          (FloatOps.ofBits .f32 0x358637BD#32))))
    mask

/-- The node combination over whole arrays, read at an index, is the combination of the six elements there. -/
private theorem nodeOut_apply (ut ut1 sums cnt se mask : FVec Ideal Cert.KernelIdeal.S15625x128 .f32) (j : Cert.KernelIdeal.S15625x128.Idx) :
    Cert.KernelIdeal.Node.nodeOut (F := Ideal) ut ut1 sums cnt se mask j = nodePt (ut j) (ut1 j) (sums j) (cnt j) (se j) (mask j) := rfl

/-- The reference's closing pointwise stages as one function of six vectors [2000000]: its own operations in its own
    order, each constant a broadcast scalar. -/
private def refNode (a1 a3 a31 a35 a51 a62 : FVec Ideal Cert.ReferenceIdeal.S2000000 .f32) : FVec Ideal Cert.ReferenceIdeal.S2000000 .f32 :=
  mulf
    (subf
      (addf
        (Host.divf (subf a1 a3)
          (broadcastInDim Cert.ReferenceIdeal.S2000000 ![] Cert.ReferenceIdeal.Gen.bcast_S_S2000000
            (constant (F := Ideal) Cert.ReferenceIdeal.S_ .f32 0x3C23D70A#32)))
        (mulf
          (select
            (cmpf (F := Ideal) .ogt a35
              (broadcastInDim Cert.ReferenceIdeal.S2000000 ![] Cert.ReferenceIdeal.Gen.bcast_S_S2000000
                (constant (F := Ideal) Cert.ReferenceIdeal.S_ .f32 0x00000000#32)))
            (Host.divf a31
              (maximumf a35
                (broadcastInDim Cert.ReferenceIdeal.S2000000 ![] Cert.ReferenceIdeal.Gen.bcast_S_S2000000
                  (constant (F := Ideal) Cert.ReferenceIdeal.S_ .f32 0x3F800000#32))))
            (broadcastInDim Cert.ReferenceIdeal.S2000000 ![] Cert.ReferenceIdeal.Gen.bcast_S_S2000000
              (constant (F := Ideal) Cert.ReferenceIdeal.S_ .f32 0x00000000#32)))
          a1))
      (mulf
        (broadcastInDim Cert.ReferenceIdeal.S2000000 ![] Cert.ReferenceIdeal.Gen.bcast_S_S2000000
          (constant (F := Ideal) Cert.ReferenceIdeal.S_ .f32 0x3C23D70A#32))
        (Host.divf
          (subf a51
            (mulf
              (broadcastInDim Cert.ReferenceIdeal.S2000000 ![] Cert.ReferenceIdeal.Gen.bcast_S_S2000000
                (constant (F := Ideal) Cert.ReferenceIdeal.S_ .f32 0x40000000#32))
              a1))
          (broadcastInDim Cert.ReferenceIdeal.S2000000 ![] Cert.ReferenceIdeal.Gen.bcast_S_S2000000
            (constant (F := Ideal) Cert.ReferenceIdeal.S_ .f32 0x358637BD#32)))))
    a62

/-- Read at an index it is the node combination of the six elements there: the host's quotient and the program's are
    one division at this instance, and a broadcast constant reads its word. -/
private theorem refNode_apply (a1 a3 a31 a35 a51 a62 : FVec Ideal Cert.ReferenceIdeal.S2000000 .f32) (i : Cert.ReferenceIdeal.S2000000.Idx) :
    refNode a1 a3 a31 a35 a51 a62 i = nodePt (a1 i) (a3 i) (a31 i) (a35 i) (a51 i) (a62 i) := rfl

section Node
variable (x0 x1 : (⟨Cert.KernelIdeal.S2000000x3, .f32⟩ : BufTy).Contents (Elt Ideal))
    (x2 : (⟨Cert.KernelIdeal.S4000000x2, .f32⟩ : BufTy).Contents (Elt Ideal))
    (x3 : (⟨Cert.KernelIdeal.S2000000x1, .f32⟩ : BufTy).Contents (Elt Ideal))
    (x4 : (⟨Cert.KernelIdeal.S2x4000000, .i32⟩ : BufTy).Contents (Elt Ideal))

/-- The program's result at node i: the combination of the six vectors at i (the [15625, 128] layout there and back
    is the identity on each). -/
private theorem kterm_apply (i : Cert.KernelIdeal.S2000000.Idx) :
    Term.kterm (F := Ideal) x0 x1 x2 x3 x4 i
      = nodePt (Term.col0 (F := Ideal) x0 i) (Term.col0 (F := Ideal) x1 i)
          (Term.col0 (F := Ideal) (Term.scat (F := Ideal) x0 x2 x4) i) (Term.col1 (F := Ideal) (Term.scat (F := Ideal) x0 x2 x4) i)
          (Term.col2 (F := Ideal) (Term.scat (F := Ideal) x0 x2 x4) i) (Term.mask (F := Ideal) x3 i) := by
  show Cert.KernelIdeal.Node.nodeOut (F := Ideal)
      (shapeCast _ (Term.col0 (F := Ideal) x0) Cert.KernelIdeal.Gen.shapeCasts_S2000000_S15625x128)
      (shapeCast _ (Term.col0 (F := Ideal) x1) Cert.KernelIdeal.Gen.shapeCasts_S2000000_S15625x128)
      (shapeCast _ (Term.col0 (F := Ideal) (Term.scat (F := Ideal) x0 x2 x4)) Cert.KernelIdeal.Gen.shapeCasts_S2000000_S15625x128)
      (shapeCast _ (Term.col1 (F := Ideal) (Term.scat (F := Ideal) x0 x2 x4)) Cert.KernelIdeal.Gen.shapeCasts_S2000000_S15625x128)
      (shapeCast _ (Term.col2 (F := Ideal) (Term.scat (F := Ideal) x0 x2 x4)) Cert.KernelIdeal.Gen.shapeCasts_S2000000_S15625x128)
      (shapeCast _ (Term.mask (F := Ideal) x3) Cert.KernelIdeal.Gen.shapeCasts_S2000000_S15625x128)
      (Shape.reshapeEquiv Cert.KernelIdeal.Gen.shapeCasts_S15625x128_S2000000 i)
    = _
  rw [nodeOut_apply, cast_back, cast_back, cast_back, cast_back, cast_back, cast_back]

/-- The reference's last stage is that function of its six vectors: the node column and its predecessor, the three
    scatter-adds, the mask. -/
private theorem v63_eq : Read.val_main_v63 (F := Ideal) x0 x1 x2 x3 x4
    = refNode (Read.val_main_v1 (F := Ideal) x0) (Read.val_main_v3 (F := Ideal) x1)
        (Read.val_main_v31 (F := Ideal) x0 x2 x4) (Read.val_main_v35 (F := Ideal) x4)
        (Read.val_main_v51 (F := Ideal) x0 x4) (Read.val_main_v62 (F := Ideal) x3) := rfl

end Node

/-- At the ideal instance the program's term and the reference's last stage are one function of the five arguments. -/
theorem kterm_eq_ref (x0 x1 : (⟨Cert.KernelIdeal.S2000000x3, .f32⟩ : BufTy).Contents (Elt Ideal))
    (x2 : (⟨Cert.KernelIdeal.S4000000x2, .f32⟩ : BufTy).Contents (Elt Ideal))
    (x3 : (⟨Cert.KernelIdeal.S2000000x1, .f32⟩ : BufTy).Contents (Elt Ideal))
    (x4 : (⟨Cert.KernelIdeal.S2x4000000, .i32⟩ : BufTy).Contents (Elt Ideal)) :
    Cert.KernelIdeal.Term.kterm (F := Ideal) x0 x1 x2 x3 x4
      = Cert.ReferenceIdeal.Read.val_main_v63 (F := Ideal) x0 x1 x2 x3 x4 := by
  funext i
  rw [kterm_apply, v63_eq, refNode_apply, scat_col0, scat_col1, scat_col2, col0_eq_v1, col0_eq_v3, mask_eq_v62]

end Cert.Bridge

end
-- ==== Proof.lean ====
/-
  The certificate's claims for the finite-difference loss on a graph: per node, the temporal difference of the node
  value over the time step, plus the mean over incoming edges of (destination value − source value) / edge length
  times the node value, minus the viscosity times the central second difference (the sum of the incoming edges' source
  values minus twice the node value, over the squared spacing), all times the mask.

  The kernel program gathers each edge's two end values on the host, computes the edge difference in a first kernel over
  [31250, 128] blocks of 4000 rows, stacks the three per-edge columns (difference, one, source value), scatter-adds the
  stack onto the destination nodes in ONE host scatter, and combines the node columns in a second kernel over
  [15625, 128] blocks of 4000 rows. In both kernels the last block overhangs its array; every operation of both kernel
  bodies is elementwise, so no row past an array's end reaches a row inside it. The reference does the same arithmetic on
  plain vectors with three separate one-column scatter-adds. At the ideal instance the two are one function: column k of
  a scatter-add of stacked columns is the scatter-add of column k (the same finite sum over the edges arriving at a
  node), a reshape and its inverse cancel around an elementwise expression, and every other operation is the same
  operation on both sides in the same order, with the same literal words.

  Frames: both kernel programs run as five items (host operations, kernel, host operations, kernel, a reshape), the
  buffer contents between items a fold from the launch memory, and no item writes an argument. The reference's frame is
  its run with the result dropped. The idealization rewrote nothing, so what it preserves is trivial.
-/
import proofs.«113954_j16939351015518_1_alg».proof.Defs
import proofs.«113954_j16939351015518_1_alg».proof.Proof.Gen.Kernel
import proofs.«113954_j16939351015518_1_alg».proof.Proof.Gen.KernelIdeal
import proofs.«113954_j16939351015518_1_alg».proof.Proof.Gen.ReferenceIdeal
import proofs.«113954_j16939351015518_1_alg».proof.Proof.Gen.Pre_finite_inputs
import proofs.«113954_j16939351015518_1_alg».proof.Proof.Kernel.Whole
import proofs.«113954_j16939351015518_1_alg».proof.Proof.KernelIdeal.Whole
import proofs.«113954_j16939351015518_1_alg».proof.Proof.KernelIdeal.Thread
import proofs.«113954_j16939351015518_1_alg».proof.Proof.RefRead
import proofs.«113954_j16939351015518_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its five arguments as launched: the run's last buffer contents, read at
    each argument, walk back through the fold to the launch memory. -/
theorem frame_k : Cert.frame_Kernel := fun m ρ _ =>
  (θ_run Cert.Kernel.defs _ _).mono
    (fun r h c =>
      ⟨(h c _ (Cert.Kernel.Whole.mem_uc Cert.Kernel.main_arg0 (by decide))).trans (Cert.Kernel.Whole.W5_main_arg0 m c),
       (h c _ (Cert.Kernel.Whole.mem_uc Cert.Kernel.main_arg1 (by decide))).trans (Cert.Kernel.Whole.W5_main_arg1 m c),
       (h c _ (Cert.Kernel.Whole.mem_uc Cert.Kernel.main_arg2 (by decide))).trans (Cert.Kernel.Whole.W5_main_arg2 m c),
       (h c _ (Cert.Kernel.Whole.mem_uc Cert.Kernel.main_arg3 (by decide))).trans (Cert.Kernel.Whole.W5_main_arg3 m c),
       (h c _ (Cert.Kernel.Whole.mem_uc Cert.Kernel.main_arg4 (by decide))).trans (Cert.Kernel.Whole.W5_main_arg4 m c)⟩)
    (Cert.Kernel.Whole.run_all (F := Bits) m ρ)

/-- The idealized program's run with its result named and its arguments read back. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v51)
            = Cert.KernelIdeal.Whole.W5 m c (Proc.devRef .tc Cert.KernelIdeal.main_v51)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c =>
      ⟨h c _ (Cert.KernelIdeal.Whole.mem_uc Cert.KernelIdeal.main_v51 (by decide)),
       (h c _ (Cert.KernelIdeal.Whole.mem_uc Cert.KernelIdeal.main_arg0 (by decide))).trans (Cert.KernelIdeal.Whole.W5_main_arg0 m c),
       (h c _ (Cert.KernelIdeal.Whole.mem_uc Cert.KernelIdeal.main_arg1 (by decide))).trans (Cert.KernelIdeal.Whole.W5_main_arg1 m c),
       (h c _ (Cert.KernelIdeal.Whole.mem_uc Cert.KernelIdeal.main_arg2 (by decide))).trans (Cert.KernelIdeal.Whole.W5_main_arg2 m c),
       (h c _ (Cert.KernelIdeal.Whole.mem_uc Cert.KernelIdeal.main_arg3 (by decide))).trans (Cert.KernelIdeal.Whole.W5_main_arg3 m c),
       (h c _ (Cert.KernelIdeal.Whole.mem_uc Cert.KernelIdeal.main_arg4 (by decide))).trans (Cert.KernelIdeal.Whole.W5_main_arg4 m c)⟩)
    (Cert.KernelIdeal.Whole.run_all (F := Ideal) m ρ)

/-- The idealized program's frame: its run with the result dropped. -/
theorem frame_ki : Cert.frame_KernelIdeal := fun m ρ _ =>
  (θ_run Cert.KernelIdeal.defs _ _).mono (fun _ h c => (h c).2) (run_ki m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end, and with equal results: the kernel program's result buffer is its pure term of the
    arguments, the reference's its last stage of the arguments, the arguments agree, and the two are one function. -/
theorem algebraic : Cert.algebraic_KernelIdeal_ReferenceIdeal := by
  intro m ρ m' ρ' _ hagree
  refine ⟨fun c => Cert.KernelIdeal.Whole.W5 m c (Proc.devRef .tc Cert.KernelIdeal.main_v51), run_ki m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v63_eq m' c, (hagree c).1, (hagree c).2.1, (hagree c).2.2.1, (hagree c).2.2.2.1,
    (hagree c).2.2.2.2]
  exact ((Cert.KernelIdeal.Thread.W5_result m c).trans (Cert.Bridge.kterm_eq_ref _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
